-- ==== Defs.lean ====
def Pre_Kernel [hPre_any_inputs : Cert.Pre_any_inputs.Facts] (m : (ℓ : Loc Cert.Kernel.nD Cert.Kernel.τ Cert.Kernel.sig) → Buf (Elt Bits) ℓ) : Prop :=
  ∀ c : Dev Cert.Kernel.nD,
    (Cert.Pre_any_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_any_inputs : Cert.Pre_any_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_any_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_any_inputs : Cert.Pre_any_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_any_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_any_inputs : Cert.Pre_any_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_any_inputs : Cert.Pre_any_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_any_inputs : Cert.Pre_any_inputs.Facts),
    frame_Kernel (hKernel := hKernel) (hPre_any_inputs := hPre_any_inputs)
    ∧ frame_KernelIdeal (hKernelIdeal := hKernelIdeal) (hPre_any_inputs := hPre_any_inputs)
    ∧ frame_ReferenceIdeal (hReferenceIdeal := hReferenceIdeal) (hPre_any_inputs := hPre_any_inputs)
    ∧ preserves_Kernel_KernelIdeal
    ∧ algebraic_KernelIdeal_ReferenceIdeal (hKernelIdeal := hKernelIdeal) (hReferenceIdeal := hReferenceIdeal) (hPre_any_inputs := hPre_any_inputs)
-- ==== Pre_any_inputs.lean ====
abbrev S2x1536x32 : Shape := ⟨3, ![2, 1536, 32]⟩
abbrev S_ : Shape := ⟨0, ![]⟩

class Facts : Prop where
  bcast_S_S2x1536x32 : S_.BroadcastsInDim S2x1536x32 (![] : Fin 0 → Fin S2x1536x32.rank)
  reducesTo_S2x1536x32_S_d0_1_2 : S2x1536x32.ReducesTo [0, 1, 2] S_
  h_S_ : 0 < S_.numel

variable [Facts]

def fn {F : FTy → Type} [FloatOps F] (main_arg0 : IVec S2x1536x32 32) (main_arg1 : IVec S2x1536x32 32) : IVec S_ 1 :=
  let main_c : IVec S_ 32 := constantI S_ 32 0#32
  let main_v0 : IVec S2x1536x32 32 := broadcastInDim S2x1536x32 ![] bcast_S_S2x1536x32 main_c
  let main_v1 : IVec S2x1536x32 1 := cmpi .sge main_arg0 main_v0
  let main_c_0 : IVec S_ 1 := constantI S_ 1 1#1
  let main_v2 : IVec S_ 1 := (fun x v => Host.reduce IntOp.andi x v reducesTo_S2x1536x32_S_d0_1_2 h_S_) main_v1 main_c_0
  let main_c_1 : IVec S_ 32 := constantI S_ 32 4096#32
  let main_v3 : IVec S2x1536x32 32 := broadcastInDim S2x1536x32 ![] bcast_S_S2x1536x32 main_c_1
  let main_v4 : IVec S2x1536x32 1 := cmpi .slt main_arg0 main_v3
  let main_c_2 : IVec S_ 1 := constantI S_ 1 1#1
  let main_v5 : IVec S_ 1 := (fun x v => Host.reduce IntOp.andi x v reducesTo_S2x1536x32_S_d0_1_2 h_S_) main_v4 main_c_2
  let main_v6 : IVec S_ 1 := andi main_v2 main_v5
  let main_c_3 : IVec S_ 32 := constantI S_ 32 0#32
  let main_v7 : IVec S2x1536x32 32 := broadcastInDim S2x1536x32 ![] bcast_S_S2x1536x32 main_c_3
  let main_v8 : IVec S2x1536x32 1 := cmpi .sge main_arg1 main_v7
  let main_c_4 : IVec S_ 1 := constantI S_ 1 1#1
  let main_v9 : IVec S_ 1 := (fun x v => Host.reduce IntOp.andi x v reducesTo_S2x1536x32_S_d0_1_2 h_S_) main_v8 main_c_4
  let main_v10 : IVec S_ 1 := andi main_v6 main_v9
  let main_c_5 : IVec S_ 32 := constantI S_ 32 4096#32
  let main_v11 : IVec S2x1536x32 32 := broadcastInDim S2x1536x32 ![] bcast_S_S2x1536x32 main_c_5
  let main_v12 : IVec S2x1536x32 1 := cmpi .slt main_arg1 main_v11
  let main_c_6 : IVec S_ 1 := constantI S_ 1 1#1
  let main_v13 : IVec S_ 1 := (fun x v => Host.reduce IntOp.andi x v reducesTo_S2x1536x32_S_d0_1_2 h_S_) main_v12 main_c_6
  let main_v14 : IVec S_ 1 := andi main_v10 main_v13
  main_v14
-- ==== Kernel.lean ====
abbrev S2x1536x32 : Shape := ⟨3, ![2, 1536, 32]⟩
abbrev S2x1536x4096 : Shape := ⟨3, ![2, 1536, 4096]⟩
abbrev S1x512x32 : Shape := ⟨3, ![1, 512, 32]⟩
abbrev S1x512x4096 : Shape := ⟨3, ![1, 512, 4096]⟩
abbrev S512x32 : Shape := ⟨2, ![512, 32]⟩
abbrev S1x512 : Shape := ⟨2, ![1, 512]⟩
abbrev S512x512 : Shape := ⟨2, ![512, 512]⟩
abbrev S512x1 : Shape := ⟨2, ![512, 1]⟩
abbrev S1x512x512 : Shape := ⟨3, ![1, 512, 512]⟩
abbrev S2x1536x1536 : Shape := ⟨3, ![2, 1536, 1536]⟩
abbrev S512x4096 : Shape := ⟨2, ![512, 4096]⟩

abbrev nBuf : Space → Nat
  | .hbm => 5
  | .vmem => 14
  | .smem => 0
  | _ => 0

abbrev bufTy : (tb : Table) → Fin (tcTables nBuf tb) → BufTy
  | .hbm, ⟨0, _⟩ => ⟨S2x1536x32, .i32⟩
  | .hbm, ⟨1, _⟩ => ⟨S2x1536x32, .i32⟩
  | .hbm, ⟨2, _⟩ => ⟨S2x1536x4096, .bf16⟩
  | .hbm, ⟨3, _⟩ => ⟨S2x1536x4096, .bf16⟩
  | .hbm, ⟨4, _⟩ => ⟨S2x1536x1536, .f32⟩
  | .local _ .vmem, ⟨0, _⟩ => ⟨S1x512x32, .i32⟩
  | .local _ .vmem, ⟨1, _⟩ => ⟨S1x512x32, .i32⟩
  | .local _ .vmem, ⟨2, _⟩ => ⟨S1x512x4096, .bf16⟩
  | .local _ .vmem, ⟨3, _⟩ => ⟨S1x512x4096, .bf16⟩
  | .local _ .vmem, ⟨4, _⟩ => ⟨S1x512x32, .i32⟩
  | .local _ .vmem, ⟨5, _⟩ => ⟨S1x512x32, .i32⟩
  | .local _ .vmem, ⟨6, _⟩ => ⟨S1x512x4096, .bf16⟩
  | .local _ .vmem, ⟨7, _⟩ => ⟨S1x512x4096, .bf16⟩
  | .local _ .vmem, ⟨8, _⟩ => ⟨S1x512x4096, .bf16⟩
  | .local _ .vmem, ⟨9, _⟩ => ⟨S1x512x4096, .bf16⟩
  | .local _ .vmem, ⟨10, _⟩ => ⟨S1x512x4096, .bf16⟩
  | .local _ .vmem, ⟨11, _⟩ => ⟨S1x512x4096, .bf16⟩
  | .local _ .vmem, ⟨12, _⟩ => ⟨S1x512x512, .f32⟩
  | .local _ .vmem, ⟨13, _⟩ => ⟨S1x512x512, .f32⟩
  | _, _ => ⟨S2x1536x32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13

abbrev nD : Nat := 1
abbrev τ : Topo := Topo.v7x

variable {F : FTy → Type} [FloatOps F]

abbrev grid0 : Pipeline.Grid := ⟨2, ![2, 3], ![false, false]⟩

@[reducible] def k0_t1_loop : Scf.Loop 32 :=
  let c0_i32 : BitVec 32 := 0#32
  let c8_i32 : BitVec 32 := 8#32
  let v2 : BitVec 32 := Scalar.addi c0_i32 c8_i32
  let c1_i32 : BitVec 32 := 1#32
  ⟨c0_i32, v2, c1_i32⟩
def k0_mult1 (k0_t1 : Fin k0_t1_loop.trips) : BitVec 32 :=
  let c0_i32_4 : BitVec 32 := 0#32
  let c0_i32 : BitVec 32 := 0#32
  let c1_i32 : BitVec 32 := 1#32
  let arg4 : BitVec 32 := Scf.iv c0_i32 c1_i32 k0_t1
  let c1_i32_3 : BitVec 32 := 1#32
  let v3 : BitVec 32 := Scalar.muli arg4 c1_i32_3
  let v4 : BitVec 32 := Scalar.addi c0_i32_4 v3
  let c512_i32 : BitVec 32 := 512#32
  let v5 : BitVec 32 := Scalar.muli v4 c512_i32
  v5
def k0_off1 (k0_t1 : Fin k0_t1_loop.trips) : Fin 3 → Nat :=
  let c0_5 : Index := 0#32
  let c0_6 : Index := 0#32
  let c0_i32_4 : BitVec 32 := 0#32
  let c0_i32 : BitVec 32 := 0#32
  let c1_i32 : BitVec 32 := 1#32
  let arg4 : BitVec 32 := Scf.iv c0_i32 c1_i32 k0_t1
  let c1_i32_3 : BitVec 32 := 1#32
  let v3 : BitVec 32 := Scalar.muli arg4 c1_i32_3
  let v4 : BitVec 32 := Scalar.addi c0_i32_4 v3
  let c512_i32 : BitVec 32 := 512#32
  let v5 : BitVec 32 := Scalar.muli v4 c512_i32
  let v6 : BitVec 32 := v5
  let v267 : Index := Scalar.indexCast v6
  ![0, 0, v267.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x32 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![2, 3], ![false, false]⟩

@[reducible] def k1_t1_loop : Scf.Loop 32 :=
  let c0_i32 : BitVec 32 := 0#32
  let c8_i32 : BitVec 32 := 8#32
  let v2 : BitVec 32 := Scalar.addi c0_i32 c8_i32
  let c1_i32 : BitVec 32 := 1#32
  ⟨c0_i32, v2, c1_i32⟩
def k1_mult1 (k1_t1 : Fin k1_t1_loop.trips) : BitVec 32 :=
  let c0_i32_4 : BitVec 32 := 0#32
  let c0_i32 : BitVec 32 := 0#32
  let c1_i32 : BitVec 32 := 1#32
  let arg4 : BitVec 32 := Scf.iv c0_i32 c1_i32 k1_t1
  let c1_i32_3 : BitVec 32 := 1#32
  let v3 : BitVec 32 := Scalar.muli arg4 c1_i32_3
  let v4 : BitVec 32 := Scalar.addi c0_i32_4 v3
  let c512_i32 : BitVec 32 := 512#32
  let v5 : BitVec 32 := Scalar.muli v4 c512_i32
  v5
def k1_off1 (k1_t1 : Fin k1_t1_loop.trips) : Fin 3 → Nat :=
  let c0_5 : Index := 0#32
  let c0_6 : Index := 0#32
  let c0_i32_4 : BitVec 32 := 0#32
  let c0_i32 : BitVec 32 := 0#32
  let c1_i32 : BitVec 32 := 1#32
  let arg4 : BitVec 32 := Scf.iv c0_i32 c1_i32 k1_t1
  let c1_i32_3 : BitVec 32 := 1#32
  let v3 : BitVec 32 := Scalar.muli arg4 c1_i32_3
  let v4 : BitVec 32 := Scalar.addi c0_i32_4 v3
  let c512_i32 : BitVec 32 := 512#32
  let v5 : BitVec 32 := Scalar.muli v4 c512_i32
  let v6 : BitVec 32 := v5
  let v267 : Index := Scalar.indexCast v6
  ![0, 0, v267.toNat]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x32 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev grid2 : Pipeline.Grid := ⟨3, ![2, 3, 3], ![false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage2_0 : Fin 2 → Memref sig .tc .vmem S1x512x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false]

abbrev stage2_1 : Fin 2 → Memref sig .tc .vmem S1x512x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S1x512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, true]

class Facts₀ : Prop where
  inb_S1x512x32_S1x512x32_0_0_0 : ∀ a, (![0, 0, 0] : Fin 3 → Nat) a + S1x512x32.size a ≤ S1x512x32.size a
  h_S1x512x32 : 0 < S1x512x32.numel
  shapeCasts_S1x512x32_S512x32 : S1x512x32.ShapeCasts S512x32
  iota_S1x512_d1_w32 : S1x512.Iotas .tc 32 [1]
  slices_S512x32_o0_0_S512x1 : S512x32.Slices ![0, 0] S512x1
  broadcasts_S512x1_S512x512 : S512x1.Broadcasts S512x512
  broadcasts_S1x512_S512x512 : S1x512.Broadcasts S512x512
  natLt_1_32 : 1 < 32
  bitsLt_bf16_f32 : FTy.bits .bf16 < FTy.bits .f32
  slices_S512x32_o0_1_S512x1 : S512x32.Slices ![0, 1] S512x1
  slices_S512x32_o0_2_S512x1 : S512x32.Slices ![0, 2] S512x1
  slices_S512x32_o0_3_S512x1 : S512x32.Slices ![0, 3] S512x1
  slices_S512x32_o0_4_S512x1 : S512x32.Slices ![0, 4] S512x1
  slices_S512x32_o0_5_S512x1 : S512x32.Slices ![0, 5] S512x1
  slices_S512x32_o0_6_S512x1 : S512x32.Slices ![0, 6] S512x1
  slices_S512x32_o0_7_S512x1 : S512x32.Slices ![0, 7] S512x1
  slices_S512x32_o0_8_S512x1 : S512x32.Slices ![0, 8] S512x1
  slices_S512x32_o0_9_S512x1 : S512x32.Slices ![0, 9] S512x1
  slices_S512x32_o0_10_S512x1 : S512x32.Slices ![0, 10] S512x1
  slices_S512x32_o0_11_S512x1 : S512x32.Slices ![0, 11] S512x1
  slices_S512x32_o0_12_S512x1 : S512x32.Slices ![0, 12] S512x1
  slices_S512x32_o0_13_S512x1 : S512x32.Slices ![0, 13] S512x1
  slices_S512x32_o0_14_S512x1 : S512x32.Slices ![0, 14] S512x1
  slices_S512x32_o0_15_S512x1 : S512x32.Slices ![0, 15] S512x1
  slices_S512x32_o0_16_S512x1 : S512x32.Slices ![0, 16] S512x1
  slices_S512x32_o0_17_S512x1 : S512x32.Slices ![0, 17] S512x1
  slices_S512x32_o0_18_S512x1 : S512x32.Slices ![0, 18] S512x1
  slices_S512x32_o0_19_S512x1 : S512x32.Slices ![0, 19] S512x1
  slices_S512x32_o0_20_S512x1 : S512x32.Slices ![0, 20] S512x1
  slices_S512x32_o0_21_S512x1 : S512x32.Slices ![0, 21] S512x1
  slices_S512x32_o0_22_S512x1 : S512x32.Slices ![0, 22] S512x1
  slices_S512x32_o0_23_S512x1 : S512x32.Slices ![0, 23] S512x1
  slices_S512x32_o0_24_S512x1 : S512x32.Slices ![0, 24] S512x1
  slices_S512x32_o0_25_S512x1 : S512x32.Slices ![0, 25] S512x1
  slices_S512x32_o0_26_S512x1 : S512x32.Slices ![0, 26] S512x1
  slices_S512x32_o0_27_S512x1 : S512x32.Slices ![0, 27] S512x1
  slices_S512x32_o0_28_S512x1 : S512x32.Slices ![0, 28] S512x1
  slices_S512x32_o0_29_S512x1 : S512x32.Slices ![0, 29] S512x1
  slices_S512x32_o0_30_S512x1 : S512x32.Slices ![0, 30] S512x1
  slices_S512x32_o0_31_S512x1 : S512x32.Slices ![0, 31] S512x1
  h_S1x512x512 : 0 < S1x512x512.numel
  shapeCasts_S1x512x512_S512x512 : S1x512x512.ShapeCasts S512x512
  shapeCasts_S512x512_S1x512x512 : S512x512.ShapeCasts S1x512x512
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  inb_S1x512x512_S1x512x512_0_0_0 : ∀ a, (![0, 0, 0] : Fin 3 → Nat) a + S1x512x512.size a ≤ S1x512x512.size a
  dot_S512x4096_S512x4096_S512x512_1_1_0_0_n_n_wf : DotDims.WF S512x4096 S512x4096 S512x512 [1] [1] [0] [0] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S1x512x512.size a ≤ S1x512x4096.size a
  k0_off1_packedbf16 : ∀ k0_t1 : Fin k0_t1_loop.trips, (Rect.unit (s := S1x512x4096) (k0_off1 k0_t1) S1x512x512.size (k0_off1_inb k0_t1)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x32.size a ≤ S2x1536x32.size a
  hwx0_0 : ∀ i : grid0.Coords, EltTy.bits .i32 = 32 ∨ (Rect.block (s := S2x1536x32) S1x512x32.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x4096.size a ≤ S2x1536x4096.size a
  hwx0_1 : ∀ i : grid0.Coords, EltTy.bits .bf16 = 32 ∨ (Rect.block (s := S2x1536x4096) S1x512x4096.size (cc0_transform_1 i) (hinb0_1 i)).WholeWords (EltTy.packing .bf16)
  hrank1 : 0 < grid1.rank
  k1_t1_ok : k1_t1_loop.OK
  k1_mult1_dvd : ∀ k1_t1 : Fin k1_t1_loop.trips, 512 ∣ (k1_mult1 k1_t1).toNat
  k1_off1_inb : ∀ k1_t1 : Fin k1_t1_loop.trips, ∀ a, (k1_off1 k1_t1) a + S1x512x512.size a ≤ S1x512x4096.size a
  k1_off1_packedbf16 : ∀ k1_t1 : Fin k1_t1_loop.trips, (Rect.unit (s := S1x512x4096) (k1_off1 k1_t1) S1x512x512.size (k1_off1_inb k1_t1)).PackedRows (EltTy.packing .bf16)
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x32.size a ≤ S2x1536x32.size a
  hwx1_0 : ∀ i : grid1.Coords, EltTy.bits .i32 = 32 ∨ (Rect.block (s := S2x1536x32) S1x512x32.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x4096.size a ≤ S2x1536x4096.size a
  hwx1_1 : ∀ i : grid1.Coords, EltTy.bits .bf16 = 32 ∨ (Rect.block (s := S2x1536x4096) S1x512x4096.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x4096.size a ≤ S2x1536x4096.size a
  hwx2_0 : ∀ i : grid2.Coords, EltTy.bits .bf16 = 32 ∨ (Rect.block (s := S2x1536x4096) S1x512x4096.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x512x4096.size a ≤ S2x1536x4096.size a
  hwx2_1 : ∀ i : grid2.Coords, EltTy.bits .bf16 = 32 ∨ (Rect.block (s := S2x1536x4096) S1x512x4096.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512x512.size a ≤ S2x1536x1536.size a
  hwx2_2 : ∀ i : grid2.Coords, EltTy.bits .f32 = 32 ∨ (Rect.block (s := S2x1536x1536) S1x512x512.size (cc2_transform_2 i) (hinb2_2 i)).WholeWords (EltTy.packing .f32)

variable [Facts₀]

def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf

abbrev win0_0 : Pipeline.Window sig grid0 :=
  Pipeline.Window.ofSpec (Memref.whole main_arg0) S1x512x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S1x512x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x512x4096.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v0) S1x512x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1x512x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1x512x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S2x1536x32 : Shape := ⟨3, ![2, 1536, 32]⟩
abbrev S_ : Shape := ⟨0, ![]⟩
abbrev S2x1536x4096 : Shape := ⟨3, ![2, 1536, 4096]⟩
abbrev S2 : Shape := ⟨1, ![2]⟩
abbrev S2x1x1 : Shape := ⟨3, ![2, 1, 1]⟩
abbrev S1536 : Shape := ⟨1, ![1536]⟩
abbrev S1x1536x1 : Shape := ⟨3, ![1, 1536, 1]⟩
abbrev S2x1536x32x1 : Shape := ⟨4, ![2, 1536, 32, 1]⟩
abbrev S2x1536x32x3 : Shape := ⟨4, ![2, 1536, 32, 3]⟩
abbrev S2x1536x1536 : Shape := ⟨3, ![2, 1536, 1536]⟩

abbrev nBuf : Space → Nat
  | .hbm => 75
  | .vmem => 0
  | .smem => 0
  | _ => 0

abbrev bufTy : (tb : Table) → Fin (tcTables nBuf tb) → BufTy
  | .hbm, ⟨0, _⟩ => ⟨S2x1536x32, .i32⟩
  | .hbm, ⟨1, _⟩ => ⟨S2x1536x32, .i32⟩
  | .hbm, ⟨2, _⟩ => ⟨S_, .f32⟩
  | .hbm, ⟨3, _⟩ => ⟨S2x1536x4096, .f32⟩
  | .hbm, ⟨4, _⟩ => ⟨S2, .i32⟩
  | .hbm, ⟨5, _⟩ => ⟨S2x1x1, .i32⟩
  | .hbm, ⟨6, _⟩ => ⟨S1536, .i32⟩
  | .hbm, ⟨7, _⟩ => ⟨S1x1536x1, .i32⟩
  | .hbm, ⟨8, _⟩ => ⟨S_, .i32⟩
  | .hbm, ⟨9, _⟩ => ⟨S2x1x1, .i32⟩
  | .hbm, ⟨10, _⟩ => ⟨S2x1x1, .i1⟩
  | .hbm, ⟨11, _⟩ => ⟨S_, .i32⟩
  | .hbm, ⟨12, _⟩ => ⟨S2x1x1, .i32⟩
  | .hbm, ⟨13, _⟩ => ⟨S2x1x1, .i32⟩
  | .hbm, ⟨14, _⟩ => ⟨S2x1x1, .i32⟩
  | .hbm, ⟨15, _⟩ => ⟨S_, .i32⟩
  | .hbm, ⟨16, _⟩ => ⟨S1x1536x1, .i32⟩
  | .hbm, ⟨17, _⟩ => ⟨S1x1536x1, .i1⟩
  | .hbm, ⟨18, _⟩ => ⟨S_, .i32⟩
  | .hbm, ⟨19, _⟩ => ⟨S1x1536x1, .i32⟩
  | .hbm, ⟨20, _⟩ => ⟨S1x1536x1, .i32⟩
  | .hbm, ⟨21, _⟩ => ⟨S1x1536x1, .i32⟩
  | .hbm, ⟨22, _⟩ => ⟨S_, .i32⟩
  | .hbm, ⟨23, _⟩ => ⟨S2x1536x32, .i32⟩
  | .hbm, ⟨24, _⟩ => ⟨S2x1536x32, .i1⟩
  | .hbm, ⟨25, _⟩ => ⟨S_, .i32⟩
  | .hbm, ⟨26, _⟩ => ⟨S2x1536x32, .i32⟩
  | .hbm, ⟨27, _⟩ => ⟨S2x1536x32, .i32⟩
  | .hbm, ⟨28, _⟩ => ⟨S2x1536x32, .i32⟩
  | .hbm, ⟨29, _⟩ => ⟨S2x1536x32, .i32⟩
  | .hbm, ⟨30, _⟩ => ⟨S2x1536x32, .i32⟩
  | .hbm, ⟨31, _⟩ => ⟨S2x1536x32x1, .i32⟩
  | .hbm, ⟨32, _⟩ => ⟨S2x1536x32x1, .i32⟩
  | .hbm, ⟨33, _⟩ => ⟨S2x1536x32x1, .i32⟩
  | .hbm, ⟨34, _⟩ => ⟨S2x1536x32x3, .i32⟩
  | .hbm, ⟨35, _⟩ => ⟨S_, .f32⟩
  | .hbm, ⟨36, _⟩ => ⟨S2x1536x32, .f32⟩
  | .hbm, ⟨37, _⟩ => ⟨S2x1536x4096, .f32⟩
  | .hbm, ⟨38, _⟩ => ⟨S_, .f32⟩
  | .hbm, ⟨39, _⟩ => ⟨S2x1536x4096, .f32⟩
  | .hbm, ⟨40, _⟩ => ⟨S2, .i32⟩
  | .hbm, ⟨41, _⟩ => ⟨S2x1x1, .i32⟩
  | .hbm, ⟨42, _⟩ => ⟨S1536, .i32⟩
  | .hbm, ⟨43, _⟩ => ⟨S1x1536x1, .i32⟩
  | .hbm, ⟨44, _⟩ => ⟨S_, .i32⟩
  | .hbm, ⟨45, _⟩ => ⟨S2x1x1, .i32⟩
  | .hbm, ⟨46, _⟩ => ⟨S2x1x1, .i1⟩
  | .hbm, ⟨47, _⟩ => ⟨S_, .i32⟩
  | .hbm, ⟨48, _⟩ => ⟨S2x1x1, .i32⟩
  | .hbm, ⟨49, _⟩ => ⟨S2x1x1, .i32⟩
  | .hbm, ⟨50, _⟩ => ⟨S2x1x1, .i32⟩
  | .hbm, ⟨51, _⟩ => ⟨S_, .i32⟩
  | .hbm, ⟨52, _⟩ => ⟨S1x1536x1, .i32⟩
  | .hbm, ⟨53, _⟩ => ⟨S1x1536x1, .i1⟩
  | .hbm, ⟨54, _⟩ => ⟨S_, .i32⟩
  | .hbm, ⟨55, _⟩ => ⟨S1x1536x1, .i32⟩
  | .hbm, ⟨56, _⟩ => ⟨S1x1536x1, .i32⟩
  | .hbm, ⟨57, _⟩ => ⟨S1x1536x1, .i32⟩
  | .hbm, ⟨58, _⟩ => ⟨S_, .i32⟩
  | .hbm, ⟨59, _⟩ => ⟨S2x1536x32, .i32⟩
  | .hbm, ⟨60, _⟩ => ⟨S2x1536x32, .i1⟩
  | .hbm, ⟨61, _⟩ => ⟨S_, .i32⟩
  | .hbm, ⟨62, _⟩ => ⟨S2x1536x32, .i32⟩
  | .hbm, ⟨63, _⟩ => ⟨S2x1536x32, .i32⟩
  | .hbm, ⟨64, _⟩ => ⟨S2x1536x32, .i32⟩
  | .hbm, ⟨65, _⟩ => ⟨S2x1536x32, .i32⟩
  | .hbm, ⟨66, _⟩ => ⟨S2x1536x32, .i32⟩
  | .hbm, ⟨67, _⟩ => ⟨S2x1536x32x1, .i32⟩
  | .hbm, ⟨68, _⟩ => ⟨S2x1536x32x1, .i32⟩
  | .hbm, ⟨69, _⟩ => ⟨S2x1536x32x1, .i32⟩
  | .hbm, ⟨70, _⟩ => ⟨S2x1536x32x3, .i32⟩
  | .hbm, ⟨71, _⟩ => ⟨S_, .f32⟩
  | .hbm, ⟨72, _⟩ => ⟨S2x1536x32, .f32⟩
  | .hbm, ⟨73, _⟩ => ⟨S2x1536x4096, .f32⟩
  | .hbm, ⟨74, _⟩ => ⟨S2x1536x1536, .f32⟩
  | _, _ => ⟨S2x1536x32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_3 : Ref sig .tc := ⟨.hbm, 22, rfl⟩
abbrev main_v15 : Ref sig .tc := ⟨.hbm, 23, rfl⟩
abbrev main_v16 : Ref sig .tc := ⟨.hbm, 24, rfl⟩
abbrev main_c_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_7 : Ref sig .tc := ⟨.hbm, 44, rfl⟩
abbrev main_v33 : Ref sig .tc := ⟨.hbm, 45, rfl⟩
abbrev main_v34 : Ref sig .tc := ⟨.hbm, 46, rfl⟩
abbrev main_c_8 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c_9 : Ref sig .tc := ⟨.hbm, 51, rfl⟩
abbrev main_v38 : Ref sig .tc := ⟨.hbm, 52, rfl⟩
abbrev main_v39 : Ref sig .tc := ⟨.hbm, 53, rfl⟩
abbrev main_c_10 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c_11 : Ref sig .tc := ⟨.hbm, 58, rfl⟩
abbrev main_v43 : Ref sig .tc := ⟨.hbm, 59, rfl⟩
abbrev main_v44 : Ref sig .tc := ⟨.hbm, 60, rfl⟩
abbrev main_c_12 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_13 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩

abbrev nD : Nat := 1
abbrev τ : Topo := Topo.v7x

variable {F : FTy → Type} [FloatOps F]

class Facts₀ : Prop where
  bcast_S_S2x1536x4096 : S_.BroadcastsInDim S2x1536x4096 (![] : Fin 0 → Fin S2x1536x4096.rank)
  bcast_S2_S2x1x1_0 : S2.BroadcastsInDim S2x1x1 (![0] : Fin 1 → Fin S2x1x1.rank)
  bcast_S1536_S1x1536x1_1 : S1536.BroadcastsInDim S1x1536x1 (![1] : Fin 1 → Fin S1x1536x1.rank)
  bcast_S_S2x1x1 : S_.BroadcastsInDim S2x1x1 (![] : Fin 0 → Fin S2x1x1.rank)
  bcast_S_S1x1536x1 : S_.BroadcastsInDim S1x1536x1 (![] : Fin 0 → Fin S1x1536x1.rank)
  bcast_S_S2x1536x32 : S_.BroadcastsInDim S2x1536x32 (![] : Fin 0 → Fin S2x1536x32.rank)
  bcast_S2x1x1_S2x1536x32_0_1_2 : S2x1x1.BroadcastsInDim S2x1536x32 (![0, 1, 2] : Fin 3 → Fin S2x1536x32.rank)
  bcast_S1x1536x1_S2x1536x32_0_1_2 : S1x1536x1.BroadcastsInDim S2x1536x32 (![0, 1, 2] : Fin 3 → Fin S2x1536x32.rank)
  bcast_S2x1536x32_S2x1536x32x1_0_1_2 : S2x1536x32.BroadcastsInDim S2x1536x32x1 (![0, 1, 2] : Fin 3 → Fin S2x1536x32x1.rank)
  concatenates_S2x1536x32x1_S2x1536x32x1_S2x1536x32x1_S2x1536x32x3_d3 : Shape.Concatenates [S2x1536x32x1, S2x1536x32x1, S2x1536x32x1] S2x1536x32x3 3
  scatter_S2x1536x4096_S2x1536x32x3_S2x1536x32_n_012_012_3_wf : ScatterDims.WF S2x1536x4096 S2x1536x32x3 S2x1536x32 [] [0, 1, 2] [0, 1, 2] 3
  dot_S2x1536x4096_S2x1536x4096_S2x1536x1536_2_2_1_1_0_0_wf : DotDims.WF S2x1536x4096 S2x1536x4096 S2x1536x1536 [2] [2] [1] [1] [0] [0]

variable [Facts₀]

def scatter_S2x1536x4096_S2x1536x32x3_S2x1536x32_n_012_012_3 : ScatterDims S2x1536x4096 S2x1536x32x3 S2x1536x32 where
  updateWindowDims := []
  insertedWindowDims := [0, 1, 2]
  scatterDimsToOperandDims := [0, 1, 2]
  indexVectorDim := 3
  wf := scatter_S2x1536x4096_S2x1536x32x3_S2x1536x32_n_012_012_3_wf
def dot_S2x1536x4096_S2x1536x4096_S2x1536x1536_2_2_1_1_0_0 : DotDims S2x1536x4096 S2x1536x4096 S2x1536x1536 where
  lhsContracting := [2]
  rhsContracting := [2]
  lhsNonContracting := [1]
  rhsNonContracting := [1]
  lhsBatch := [0]
  rhsBatch := [0]
  wf := dot_S2x1536x4096_S2x1536x4096_S2x1536x1536_2_2_1_1_0_0_wf

class Facts : Prop extends Facts₀ where

variable [Facts]
-- ==== Proof.Spec.lean ====
/-
  What both programs compute, stated once over the argument arrays.
  For index arrays xq, xk : int32[2, 1536, 32] read as 32 words per token,
    count x b s d = the number of positions w with x[b, s, w] = d          (d in [0, 4096)),
    overlap xq xk [b, q, k] = sum over d of count xq b q d * count xk b k d,
  i.e. the number of pairs (w1, w2) with xq[b, q, w1] = xk[b, k, w2] and that common word below 4096.
  Every count is a natural number below 33, so all sums are finite reals inside the extended reals.
-/
import Idealize.ShloMosaic.PureOps.Ideal
import Idealize.ShloMosaic.Lib.ValueIdx

noncomputable section

namespace Cert.Overlap

open Idealize.ShloMosaic Idealize.ShloMosaic.ValueIdx

/-- The index arrays, the per-token histograms, and the result. -/
abbrev SIdx : Shape := ⟨3, ![2, 1536, 32]⟩
abbrev SHist : Shape := ⟨3, ![2, 1536, 4096]⟩
abbrev SOut : Shape := ⟨3, ![2, 1536, 1536]⟩

/-- How many of token (b, s)'s 32 words equal d. -/
def count (x : SIdx.Idx → BitVec 32) (b : Fin 2) (s : Fin 1536) (d : Fin 4096) : EReal :=
  ∑ w : Fin 32, if x (ix3 b s w) = BitVec.ofNat 32 d.val then (1 : EReal) else 0

/-- The histogram array: entry (b, s, d) is `count x b s d`. -/
def hist (x : SIdx.Idx → BitVec 32) : SHist.Idx → EReal :=
  fun i => count x ⟨(i 0).val, (i 0).isLt⟩ ⟨(i 1).val, (i 1).isLt⟩ ⟨(i 2).val, (i 2).isLt⟩

/-- The product of two histogram arrays contracted over the word axis. -/
def contract (hq hk : SHist.Idx → EReal) : SOut.Idx → EReal :=
  fun i => ∑ d : Fin 4096,
    hq (ix3 (⟨(i 0).val, (i 0).isLt⟩ : Fin 2) (⟨(i 1).val, (i 1).isLt⟩ : Fin 1536) d)
      * hk (ix3 (⟨(i 0).val, (i 0).isLt⟩ : Fin 2) (⟨(i 2).val, (i 2).isLt⟩ : Fin 1536) d)

/-- The result: the histograms of the two index arrays, contracted. -/
def overlap (xq xk : SIdx.Idx → BitVec 32) : SOut.Idx → EReal := contract (hist xq) (hist xk)

end Cert.Overlap

end
-- ==== Proof.KernelHist0.lean ====
/-
  The first histogram region of the idealized kernel: for every grid point (b, s-tile) the body writes, chunk by chunk
  of 512 words, the number of positions w at which the token's word equals the chunk's word; the 8 chunks tile the
  [512, 4096] block and the 2 x 3 blocks tile the [2, 1536, 4096] array, so the array ends as the histogram of the
  index array the region reads.

  The steps. (1) The body's stores are the 8 trips' pieces, trip k storing one value at columns 512 k … 512 k + 511.
  (2) That value at (0, p, q) is a left fold over the 32 word positions of "1 if token p's word at w is 512 k + q, else 0"
  onto zero: the number of token p's words equal to 512 k + q. (3) So every piece is one function of the block's index
  under its own rectangle, and the block read back is that function: entry (0, p, d) counts the words of token p equal
  to d. (4) The token block at point t is rows 512 s … 512 s + 511 of batch b of the index array, so what point t writes
  back is block (b, s, 0) of the histogram array, and the 6 blocks cover the array.
-/
import proofs.«418196_j30021821399043_2_alg».proof.Proof.Gen.KernelIdeal.Frame
import proofs.«418196_j30021821399043_2_alg».proof.Proof.Spec
import Idealize.ShloMosaic.Lib.Pipeline.Value
import Idealize.ShloMosaic.Lib.IdealHost
import Idealize.ShloMosaic.Lib.Tactic

set_option maxRecDepth 16384

noncomputable section

open Idealize.ShloMosaic Idealize.ShloMosaic.TcCoe Idealize.SL.Sem
open Idealize.ShloMosaic.ValueIdx Idealize.ShloMosaic.Tactic

namespace Cert.KernelIdeal.Hist0

open Cert.KernelIdeal Cert.KernelIdeal.Gen

variable {F : FTy → Type} [FloatOps F]

/-! ## One word position's term -/

/-- One word's contribution to a chunk: 1 where the token's word at the sliced position equals the chunk's word, else 0. -/
def wordTerm (v1 : IVec S512x32 32) (v9 : IVec S1x512 32) (off : Fin 2 → Nat) (h : S512x32.Slices off S512x1) : FVec F S512x512 .bf16 :=
  truncf .bf16 (sitofp .f32 (extui 32 (cmpi .eq (broadcastTo S512x512 (extractStridedSlice S512x1 off v1 h) broadcasts_S512x1_S512x512) (broadcastTo S512x512 v9 broadcasts_S1x512_S512x512)) natLt_1_32)) bitsLt_bf16_f32

/-- The equality bit of two words, widened to a word and converted, is the real 1 or 0. -/
theorem bit_word_real (x y : BitVec 32) :
    ((((IntOp.cmpi .eq x y).setWidth 32).toInt : ℝ) : EReal) = if x = y then 1 else 0 := by
  by_cases hxy : x = y
  · subst hxy
    rw [if_pos rfl]
    have : IntOp.cmpi .eq x x = 1#1 := by simp [IntOp.cmpi]
    rw [this]; norm_num
  · rw [if_neg hxy]
    have hb : (x == y) = false := beq_false_of_ne hxy
    have : IntOp.cmpi .eq x y = 0#1 := by
      show BitVec.ofBool (x == y) = 0#1
      rw [hb]; rfl
    rw [this]; norm_num

/-- A word term at block position (p, q): the token p's word w against the chunk's word q. -/
theorem wordTerm_apply (v1 : IVec S512x32 32) (v9 : IVec S1x512 32) (off : Fin 2 → Nat) (h : S512x32.Slices off S512x1)
    (w : Fin 32) (h0 : off 0 = 0) (h1 : off 1 = w.val) (p q : Fin 512) :
    wordTerm (F := Ideal) v1 v9 off h (ix2 p q) = if v1 (ix2 p w) = v9 (ix2 (0 : Fin 1) q) then 1 else 0 := by
  have e1 : broadcastTo S512x512 (extractStridedSlice S512x1 off v1 h) broadcasts_S512x1_S512x512 (ix2 p q) = v1 (ix2 p w) := by
    refine (broadcastTo_apply _ _ (ix2 p q) (ix2 p (0 : Fin 1)) fun a => ?_).trans ?_
    · match a with
      | ⟨0, _⟩ => rfl
      | ⟨1, _⟩ => rfl
    · refine extractStridedSlice_apply off v1 h (ix2 p (0 : Fin 1)) (ix2 p w) fun a => ?_
      match a with
      | ⟨0, _⟩ => show p.val = off 0 + p.val; omega
      | ⟨1, _⟩ => show w.val = off 1 + 0; omega
  have e2 : broadcastTo S512x512 v9 broadcasts_S1x512_S512x512 (ix2 p q) = v9 (ix2 (0 : Fin 1) q) := by
    refine broadcastTo_apply _ _ (ix2 p q) (ix2 (0 : Fin 1) q) fun a => ?_
    match a with
    | ⟨0, _⟩ => rfl
    | ⟨1, _⟩ => rfl
  show ((((IntOp.cmpi .eq (broadcastTo S512x512 (extractStridedSlice S512x1 off v1 h) broadcasts_S512x1_S512x512 (ix2 p q))
      (broadcastTo S512x512 v9 broadcasts_S1x512_S512x512 (ix2 p q))).setWidth 32).toInt : ℝ) : EReal) = _
  rw [e1, e2, bit_word_real]

/-! ## The value one trip stores -/

theorem hz3 : (![0, 0, 0] : Fin 3 → Nat) = fun _ => 0 := funext fun a => by fin_cases a <;> rfl

/-- The value one trip stores: the 32 comparisons of the token block's words with the chunk's words, added up. -/
def chunkPay (v0 : Vec F S1x512x32 .i32) (k : Fin k0_t1_loop.trips) : FVec F S1x512x512 .bf16 :=
  k0_pay2 v0 (k0_pay3 (0#32) (1#32) k)
    (k0_pay11 (k0_pay1 v0) (k0_pay3 (0#32) (1#32) k)
      (k0_pay9 (k0_pay1 v0) (k0_pay3 (0#32) (1#32) k)
        (k0_pay6 (k0_pay1 v0) (k0_pay3 (0#32) (1#32) k) (k0_pay4 (k0_pay1 v0) (0#32) (1#32) k)
          (k0_pay5 (k0_pay1 v0) (0#32) (1#32) k))
        (k0_pay7 (k0_pay1 v0)) (k0_pay8 (k0_pay3 (0#32) (1#32) k)))
      (k0_pay10 (k0_pay1 v0) (k0_pay3 (0#32) (1#32) k)))
    (k0_pay12 (k0_pay1 v0)) (k0_pay13 (k0_pay3 (0#32) (1#32) k))

/-- Every word position is a one-column slice of the [512, 32] token block. -/
theorem wordSlices : ∀ w : Fin 32, S512x32.Slices ![0, w.val] S512x1 := by decide

/-- The 32 word terms added, in order of the word position, onto the zero splat. -/
def accWords (v1 : IVec S512x32 32) (v9 : IVec S1x512 32) : FVec F S512x512 .bf16 :=
  (List.finRange 32).foldl (fun acc w => addf acc (wordTerm v1 v9 ![0, w.val] (wordSlices w)))
    (broadcast S512x512 (Scalar.ofBits .bf16 0x0000#16))

/-- The stored value is that sum over the token block read as [512, 32] and the chunk's words, as a [1, 512, 512] block. -/
theorem chunkPay_eq (v0 : Vec F S1x512x32 .i32) (k : Fin k0_t1_loop.trips) :
    chunkPay v0 k = shapeCast S1x512x512 (accWords (F := F) (k0_pay1 v0) (k0_pay3 (0#32) (1#32) k)) shapeCasts_S512x512_S1x512x512 := by
  rfl

/-- A left fold of word terms read at (p, q): the start value there plus the listed positions' indicator sum. -/
theorem foldWords_apply (v1 : IVec S512x32 32) (v9 : IVec S1x512 32) (p q : Fin 512) :
    ∀ (L : List (Fin 32)) (z : FVec Ideal S512x512 .bf16),
      L.foldl (fun acc w => addf acc (wordTerm (F := Ideal) v1 v9 ![0, w.val] (wordSlices w))) z (ix2 p q)
        = z (ix2 p q) + (L.map fun w => if v1 (ix2 p w) = v9 (ix2 (0 : Fin 1) q) then (1 : EReal) else 0).sum
  | [], z => (add_zero _).symm
  | a :: L, z => by
    rw [List.foldl_cons, foldWords_apply v1 v9 p q L, addf_apply, wordTerm_apply v1 v9 _ _ a rfl rfl, List.map_cons,
      List.sum_cons, add_assoc]

/-- The 32 word terms added at (p, q): how many of token p's words equal the chunk's word q. -/
theorem accWords_apply (v1 : IVec S512x32 32) (v9 : IVec S1x512 32) (p q : Fin 512) :
    accWords (F := Ideal) v1 v9 (ix2 p q) = ∑ w : Fin 32, if v1 (ix2 p w) = v9 (ix2 (0 : Fin 1) q) then (1 : EReal) else 0 := by
  unfold accWords
  rw [foldWords_apply, Fin.sum_univ_def]
  show Ideal.ofBits .bf16 0x0000#16 + _ = _
  rw [Ideal.ofBits_zero_bf16, zero_add]

/-- The chunk's word at lane q in trip k is the word 512 k + q. -/
theorem chunkWord_apply (k : Fin k0_t1_loop.trips) (q : Fin 512) :
    k0_pay3 (0#32) (1#32) k (ix2 (0 : Fin 1) q) = BitVec.ofNat 32 (512 * k.val + q.val) := by
  show IntOp.addi (Scalar.muli (Scalar.addi 0#32 (Scalar.muli (Scf.iv (0#32) (1#32) k) 1#32)) 512#32)
      (iota .tc S1x512 32 [1] iota_S1x512_d1_w32 (ix2 (0 : Fin 1) q)) = _
  rw [iota_single_apply]
  show (0#32 + (0#32 + BitVec.ofNat 32 k.val * 1#32) * 1#32) * 512#32 + BitVec.ofNat 32 q.val = _
  rw [BitVec.ofNat_add, BitVec.ofNat_mul]
  simp only [BitVec.zero_add, BitVec.mul_one]
  rw [BitVec.mul_comm]

/-- The token block read as [512, 32] at (p, w) is the loaded block at (0, p, w). -/
theorem tokenWord_apply (v0 : Vec F S1x512x32 .i32) (p : Fin 512) (w : Fin 32) :
    k0_pay1 v0 (ix2 p w) = v0 (ix3 (0 : Fin 1) p w) := by
  refine (shapeCast_dropUnit_apply ![512, 32] v0 shapeCasts_S1x512x32_S512x32 (ix2 p w)).trans (congrArg v0 ?_)
  funext a
  match a with
  | ⟨0, _⟩ => rfl
  | ⟨1, _⟩ => rfl
  | ⟨2, _⟩ => rfl

/-- WHAT TRIP k STORES at (0, p, q): how many of token p's 32 words equal the word 512 k + q. -/
theorem chunkPay_apply (v0 : S1x512x32.Idx → BitVec 32) (k : Fin k0_t1_loop.trips) (p q : Fin 512) :
    chunkPay (F := Ideal) v0 k (ix3 (0 : Fin 1) p q)
      = ∑ w : Fin 32, if v0 (ix3 (0 : Fin 1) p w) = BitVec.ofNat 32 (512 * k.val + q.val) then (1 : EReal) else 0 := by
  rw [chunkPay_eq]
  refine (shapeCast_addUnit_apply ![512, 512] _ shapeCasts_S512x512_S1x512x512 (ix3 (0 : Fin 1) p q)).trans ?_
  have hj : (fun a : Fin 2 => (ix3 (0 : Fin 1) p q) a.succ) = ix2 p q := by
    funext a
    match a with
    | ⟨0, _⟩ => rfl
    | ⟨1, _⟩ => rfl
  rw [hj, accWords_apply, chunkWord_apply]
  refine Finset.sum_congr rfl fun w _ => ?_
  rw [tokenWord_apply]

/-! ## The body's pieces, and the block they leave -/

/-- The run's pieces are the 8 trips' pieces over the loaded token block. -/
theorem run_pieces (c : Dev nD) (i : grid0.Coords) (arg2 : Memref sig .tc .vmem S1x512x32 .i32) (harg2 : arg2.IsWhole) (arg3 : Memref sig .tc .vmem S1x512x4096 .bf16) (harg3 : arg3.IsWhole)
    (x0 : Vec F S1x512x32 .i32) : (kernelRun0_A c i arg2 harg2 arg3 harg3 x0).1 = pb_k0_t1 Variants.none c none i arg2 harg2 arg3 harg3 x0 8 := by
  unfold kernelRun0_A
  dsimp only
  sl_unfold_words
  simp only [View.readAt_eq_ld, harg2.read_unread, View.ld_unit_zero (S := S1x512x32) hz3]
  rfl

/-- Trip k's one piece: the chunk's value stored at columns 512 k … 512 k + 511. -/
theorem trip_piece (c : Dev nD) (i : grid0.Coords) (arg2 : Memref sig .tc .vmem S1x512x32 .i32) (harg2 : arg2.IsWhole) (arg3 : Memref sig .tc .vmem S1x512x4096 .bf16) (harg3 : arg3.IsWhole)
    (v0 : Vec F S1x512x32 .i32) (k : Fin k0_t1_loop.trips) :
    tripL_k0_t1 Variants.none c none i arg2 harg2 arg3 harg3 v0 k
      = [⟨Rect.unit (s := S1x512x4096) (k0_off1 k) S1x512x512.size (k0_off1_inb k), chunkPay v0 k⟩] := by
  unfold tripL_k0_t1 trip_k0_t1
  dsimp only
  sl_unfold_run_names
  rfl

/-- The [1, 512, 4096] block a grid point leaves, as one function of the token block it loaded: entry (0, p, d) is the
    number of token p's 32 words equal to d. -/
def blockHist (x0 : S1x512x32.Idx → BitVec 32) : S1x512x4096.Idx → EReal := fun y =>
  ∑ w : Fin 32, if x0 (ix3 (0 : Fin 1) (⟨(y 1).val, (y 1).isLt⟩ : Fin 512) w) = BitVec.ofNat 32 (y 2).val then (1 : EReal) else 0

theorem blockHist_apply (x0 : S1x512x32.Idx → BitVec 32) (y : S1x512x4096.Idx) (p : Fin 512) (d : Nat)
    (hp : (y 1).val = p.val) (hd : (y 2).val = d) :
    blockHist x0 y = ∑ w : Fin 32, if x0 (ix3 (0 : Fin 1) p w) = BitVec.ofNat 32 d then (1 : EReal) else 0 := by
  unfold blockHist
  have e : (⟨(y 1).val, (y 1).isLt⟩ : Fin 512) = p := Fin.ext hp
  rw [e, hd]

/-- Trip k's stored value is the block function under the trip's rectangle. -/
theorem chunk_agrees (x0 : S1x512x32.Idx → BitVec 32) (k : Fin k0_t1_loop.trips) (x : S1x512x512.Idx) :
    chunkPay (F := Ideal) x0 k x
      = blockHist x0 ((Rect.unit (s := S1x512x4096) (k0_off1 k) S1x512x512.size (k0_off1_inb k)).emb x) := by
  obtain ⟨a, p, q, rfl⟩ : ∃ (a : Fin 1) (p q : Fin 512), x = ix3 a p q := ⟨x 0, x 1, x 2, eq_ix3 x⟩
  obtain rfl : a = 0 := Subsingleton.elim _ _
  rw [chunkPay_apply]
  refine (blockHist_apply x0 _ p (512 * k.val + q.val) ?_ ?_).symm
  · rw [Rect.emb_apply, Rect.off_unit, Rect.stride_unit]
    show k0_off1 k 1 + 1 * p.val = p.val
    rw [congrFun (k0_off1_eq k) 1]
    show 0 + 1 * p.val = p.val
    omega
  · rw [Rect.emb_apply, Rect.off_unit, Rect.stride_unit]
    show k0_off1 k 2 + 1 * q.val = 512 * k.val + q.val
    rw [congrFun (k0_off1_eq k) 2]
    show 512 * k.val + 1 * q.val = 512 * k.val + q.val
    omega

theorem trips_eq : k0_t1_loop.trips = 8 := by decide

/-- Every piece of the trips before n is the block function under its own rectangle. -/
theorem pieces_agree (c : Dev nD) (i : grid0.Coords) (arg2 : Memref sig .tc .vmem S1x512x32 .i32) (harg2 : arg2.IsWhole) (arg3 : Memref sig .tc .vmem S1x512x4096 .bf16) (harg3 : arg3.IsWhole)
    (x0 : Vec Ideal S1x512x32 .i32) :
    ∀ n : Nat, n ≤ 8 → ∀ pc ∈ pb_k0_t1 (F := Ideal) Variants.none c none i arg2 harg2 arg3 harg3 x0 n,
      ∀ x : pc.1.shape.Idx, pc.2 x = blockHist x0 (pc.1.emb x)
  | 0, _, pc, hpc => by
    rw [pb_k0_t1.eq_1] at hpc
    exact absurd hpc List.not_mem_nil
  | n + 1, hn, pc, hpc => by
    have hlt : n < k0_t1_loop.trips := by rw [trips_eq]; omega
    rw [show n + 1 = (⟨n, hlt⟩ : Fin k0_t1_loop.trips).val + 1 from rfl, pb_k0_t1_succ, trip_piece] at hpc
    rcases List.mem_append.mp hpc with h | h
    · obtain rfl := List.mem_singleton.mp h
      exact fun x => chunk_agrees x0 ⟨n, hlt⟩ x
    · exact pieces_agree c i arg2 harg2 arg3 harg3 x0 n (by omega) pc h

/-- WHAT THE BODY LEAVES in the output's staging buffer: the block function of the token block it loaded. -/
theorem block_eq (c : Dev nD) (i : grid0.Coords) (arg2 : Memref sig .tc .vmem S1x512x32 .i32) (harg2 : arg2.IsWhole) (arg3 : Memref sig .tc .vmem S1x512x4096 .bf16) (harg3 : arg3.IsWhole)
    (x0 : Vec Ideal S1x512x32 .i32) : out0_A_1 (F := Ideal) c i arg2 harg2 arg3 harg3 x0 = blockHist x0 := by
  unfold out0_A_1
  rw [View.read_writes_eq_canon _ _ _ (cover0_A_1 c i arg2 harg2 arg3 harg3 x0)]
  funext y
  refine View.canon_apply_of_pieces (blockHist x0) _ ?_ y (cover0_A_1 c i arg2 harg2 arg3 harg3 x0 y)
  rw [run_pieces]
  exact pieces_agree c i arg2 harg2 arg3 harg3 x0 8 (Nat.le_refl 8)

/-! ## From blocks to the array -/

/-- The block function of a token block that is rows of the index array is the histogram array's entries there. -/
theorem blockHist_eq_hist (X : Cert.Overlap.SIdx.Idx → BitVec 32) (x0 : S1x512x32.Idx → BitVec 32)
    (y : S1x512x4096.Idx) (i : Cert.Overlap.SHist.Idx) (hd : (y 2).val = (i 2).val)
    (hx : ∀ w : Fin 32, x0 (ix3 (0 : Fin 1) (⟨(y 1).val, (y 1).isLt⟩ : Fin 512) w)
      = X (ix3 (⟨(i 0).val, (i 0).isLt⟩ : Fin 2) (⟨(i 1).val, (i 1).isLt⟩ : Fin 1536) w)) :
    blockHist x0 y = Cert.Overlap.hist X i := by
  unfold blockHist Cert.Overlap.hist Cert.Overlap.count
  refine Finset.sum_congr rfl fun w _ => ?_
  rw [hx w, hd]

/-- The printed index maps over the grid: the token window and the histogram window move together, block (b, s, 0). -/
theorem idx_facts : ∀ t : Fin cfg0.N, win0_0.index t (0 : Fin 3) = win0_1.index t (0 : Fin 3)
    ∧ win0_0.index t (1 : Fin 3) = win0_1.index t (1 : Fin 3)
    ∧ win0_0.index t (2 : Fin 3) = 0 ∧ win0_1.index t (2 : Fin 3) = 0
    ∧ win0_1.index t (0 : Fin 3) ≤ 1 ∧ win0_1.index t (1 : Fin 3) ≤ 2 :=
  (by decide +kernel : ∀ t : Fin grid0.N, _)

/-- Every block (b, s, 0) of the histogram array is some point's. -/
theorem idx_onto : ∀ (b : Fin 2) (s : Fin 3), ∃ t : Fin cfg0.N, win0_1.index t = ![b.val, s.val, 0] :=
  (by decide +kernel : ∀ (b : Fin 2) (s : Fin 3), ∃ t : Fin grid0.N, win0_1.index t = ![b.val, s.val, 0])

/-- WHAT POINT t WRITES BACK is block t of the histogram of the index array as the region finds it. -/
theorem flushed_eq (V : (c : Dev nD) → (b : Ref sig .tc) → Buf (Elt Ideal) ((c : Thread nD τ).loc b)) (c : Dev nD) (t : Fin cfg0.N) :
    (dat0 (F := Ideal) V c).flushed 1 t = ((cfg0.win 1).blk t).view.read (Elt Ideal) (Cert.Overlap.hist (V c main_arg0)) := by
  show (cfg0.win 1).cut (grid0.coords t) ((dat0 (F := Ideal) V c).after 1 t) = _
  rw [after0_1]
  unfold outsAt0
  rw [block_eq]
  obtain ⟨e0, e1, e2, e3, e4, e5⟩ := idx_facts t
  funext j
  have hj0 : (j 0).val < 1 := (j 0).isLt
  have hj1 : (j 1).val < 512 := (j 1).isLt
  have hj2 : (j 2).val < 4096 := (j 2).isLt
  show blockHist (iblk0 V c 0 t) j = Cert.Overlap.hist (V c main_arg0) (((cfg0.win 1).blk t).view.emb j)
  refine blockHist_eq_hist (V c main_arg0) (iblk0 V c 0 t) j (((cfg0.win 1).blk t).view.emb j) ?_ ?_
  · show (j 2).val = win0_1.index t (2 : Fin 3) * 4096 + 1 * (j 2).val
    omega
  · intro w
    show V c main_arg0 (((cfg0.win 0).blk t).view.emb (ix3 (0 : Fin 1) (⟨(j 1).val, (j 1).isLt⟩ : Fin 512) w)) = V c main_arg0 _
    refine congrArg (V c main_arg0) ?_
    funext a
    apply Fin.ext
    match a with
    | ⟨0, _⟩ => show win0_0.index t (0 : Fin 3) * 1 + 1 * 0 = win0_1.index t (0 : Fin 3) * 1 + 1 * (j 0).val; omega
    | ⟨1, _⟩ => show win0_0.index t (1 : Fin 3) * 512 + 1 * (j 1).val = win0_1.index t (1 : Fin 3) * 512 + 1 * (j 1).val; omega
    | ⟨2, _⟩ => show win0_0.index t (2 : Fin 3) * 32 + 1 * w.val = w.val; omega

/-- An index of the histogram array is in point t's block iff each coordinate is in the block's range on its axis. -/
theorem mem_blk (t : Fin cfg0.N) (i : S2x1536x4096.Idx) :
    i ∈ ((cfg0.win 1).blk t).view.set ↔ ∀ a : Fin 3, win0_1.index t a * S1x512x4096.size a ≤ (i a).val ∧ (i a).val < win0_1.index t a * S1x512x4096.size a + S1x512x4096.size a := by
  show i ∈ ((View.whole main_v0).slice (win0_1.rect t)).set ↔ _
  rw [View.set_slice_whole, Rect.mem_set_unit]
  exact Iff.rfl

/-- The 2 x 3 blocks tile the array: entry (b, s, d) lies in the block of the point with block index (b, s / 512, 0). -/
theorem covered (i : S2x1536x4096.Idx) : ∃ t : Fin cfg0.N, (cfg0.win 1).flush t = true ∧ i ∈ ((cfg0.win 1).blk t).view.set := by
  have hi0 : (i 0).val < 2 := (i 0).isLt
  have hi1 : (i 1).val < 1536 := (i 1).isLt
  have hi2 : (i 2).val < 4096 := (i 2).isLt
  obtain ⟨t, ht⟩ := idx_onto ⟨(i 0).val, hi0⟩ ⟨(i 1).val / 512, by omega⟩
  have q0 : win0_1.index t (0 : Fin 3) = (i 0).val := congrFun ht 0
  have q1 : win0_1.index t (1 : Fin 3) = (i 1).val / 512 := congrFun ht 1
  have q2 : win0_1.index t (2 : Fin 3) = 0 := congrFun ht 2
  refine ⟨t, flush0_1 t, ?_⟩
  rw [mem_blk]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 512 ≤ (i 1).val ∧ (i 1).val < win0_1.index t (1 : Fin 3) * 512 + 512; omega
  | ⟨2, _⟩ => show win0_1.index t (2 : Fin 3) * 4096 ≤ (i 2).val ∧ (i 2).val < win0_1.index t (2 : Fin 3) * 4096 + 4096; omega

/-- After region 0 its output array is the histogram of the index array it was entered with. -/
theorem hist0_arr (V : (c : Dev nD) → (b : Ref sig .tc) → Buf (Elt Ideal) ((c : Thread nD τ).loc b)) (c : Dev nD) :
    (dat0 (F := Ideal) V c).arrAt 1 cfg0.N = Cert.Overlap.hist (V c main_arg0) :=
  (dat0 (F := Ideal) V c).arrAt_eq_of_cover 1 (Cert.Overlap.hist (V c main_arg0)) (fun t _ => flushed_eq V c t) covered

end Cert.KernelIdeal.Hist0

end
-- ==== Proof.KernelHist1.lean ====
/-
  The second histogram region of the idealized kernel: for every grid point (b, s-tile) the body writes, chunk by chunk
  of 512 words, the number of positions w at which the token's word equals the chunk's word; the 8 chunks tile the
  [512, 4096] block and the 2 x 3 blocks tile the [2, 1536, 4096] array, so the array ends as the histogram of the
  index array the region reads.

  The steps. (1) The body's stores are the 8 trips' pieces, trip k storing one value at columns 512 k … 512 k + 511.
  (2) That value at (0, p, q) is a left fold over the 32 word positions of "1 if token p's word at w is 512 k + q, else 0"
  onto zero: the number of token p's words equal to 512 k + q. (3) So every piece is one function of the block's index
  under its own rectangle, and the block read back is that function: entry (0, p, d) counts the words of token p equal
  to d. (4) The token block at point t is rows 512 s … 512 s + 511 of batch b of the index array, so what point t writes
  back is block (b, s, 0) of the histogram array, and the 6 blocks cover the array.
-/
import proofs.«418196_j30021821399043_2_alg».proof.Proof.Gen.KernelIdeal.Frame
import proofs.«418196_j30021821399043_2_alg».proof.Proof.Spec
import Idealize.ShloMosaic.Lib.Pipeline.Value
import Idealize.ShloMosaic.Lib.IdealHost
import Idealize.ShloMosaic.Lib.Tactic

set_option maxRecDepth 16384

noncomputable section

open Idealize.ShloMosaic Idealize.ShloMosaic.TcCoe Idealize.SL.Sem
open Idealize.ShloMosaic.ValueIdx Idealize.ShloMosaic.Tactic

namespace Cert.KernelIdeal.Hist1

open Cert.KernelIdeal Cert.KernelIdeal.Gen

variable {F : FTy → Type} [FloatOps F]

/-! ## One word position's term -/

/-- One word's contribution to a chunk: 1 where the token's word at the sliced position equals the chunk's word, else 0. -/
def wordTerm (v1 : IVec S512x32 32) (v9 : IVec S1x512 32) (off : Fin 2 → Nat) (h : S512x32.Slices off S512x1) : FVec F S512x512 .bf16 :=
  truncf .bf16 (sitofp .f32 (extui 32 (cmpi .eq (broadcastTo S512x512 (extractStridedSlice S512x1 off v1 h) broadcasts_S512x1_S512x512) (broadcastTo S512x512 v9 broadcasts_S1x512_S512x512)) natLt_1_32)) bitsLt_bf16_f32

/-- The equality bit of two words, widened to a word and converted, is the real 1 or 0. -/
theorem bit_word_real (x y : BitVec 32) :
    ((((IntOp.cmpi .eq x y).setWidth 32).toInt : ℝ) : EReal) = if x = y then 1 else 0 := by
  by_cases hxy : x = y
  · subst hxy
    rw [if_pos rfl]
    have : IntOp.cmpi .eq x x = 1#1 := by simp [IntOp.cmpi]
    rw [this]; norm_num
  · rw [if_neg hxy]
    have hb : (x == y) = false := beq_false_of_ne hxy
    have : IntOp.cmpi .eq x y = 0#1 := by
      show BitVec.ofBool (x == y) = 0#1
      rw [hb]; rfl
    rw [this]; norm_num

/-- A word term at block position (p, q): the token p's word w against the chunk's word q. -/
theorem wordTerm_apply (v1 : IVec S512x32 32) (v9 : IVec S1x512 32) (off : Fin 2 → Nat) (h : S512x32.Slices off S512x1)
    (w : Fin 32) (h0 : off 0 = 0) (h1 : off 1 = w.val) (p q : Fin 512) :
    wordTerm (F := Ideal) v1 v9 off h (ix2 p q) = if v1 (ix2 p w) = v9 (ix2 (0 : Fin 1) q) then 1 else 0 := by
  have e1 : broadcastTo S512x512 (extractStridedSlice S512x1 off v1 h) broadcasts_S512x1_S512x512 (ix2 p q) = v1 (ix2 p w) := by
    refine (broadcastTo_apply _ _ (ix2 p q) (ix2 p (0 : Fin 1)) fun a => ?_).trans ?_
    · match a with
      | ⟨0, _⟩ => rfl
      | ⟨1, _⟩ => rfl
    · refine extractStridedSlice_apply off v1 h (ix2 p (0 : Fin 1)) (ix2 p w) fun a => ?_
      match a with
      | ⟨0, _⟩ => show p.val = off 0 + p.val; omega
      | ⟨1, _⟩ => show w.val = off 1 + 0; omega
  have e2 : broadcastTo S512x512 v9 broadcasts_S1x512_S512x512 (ix2 p q) = v9 (ix2 (0 : Fin 1) q) := by
    refine broadcastTo_apply _ _ (ix2 p q) (ix2 (0 : Fin 1) q) fun a => ?_
    match a with
    | ⟨0, _⟩ => rfl
    | ⟨1, _⟩ => rfl
  show ((((IntOp.cmpi .eq (broadcastTo S512x512 (extractStridedSlice S512x1 off v1 h) broadcasts_S512x1_S512x512 (ix2 p q))
      (broadcastTo S512x512 v9 broadcasts_S1x512_S512x512 (ix2 p q))).setWidth 32).toInt : ℝ) : EReal) = _
  rw [e1, e2, bit_word_real]

/-! ## The value one trip stores -/

theorem hz3 : (![0, 0, 0] : Fin 3 → Nat) = fun _ => 0 := funext fun a => by fin_cases a <;> rfl

/-- The value one trip stores: the 32 comparisons of the token block's words with the chunk's words, added up. -/
def chunkPay (v0 : Vec F S1x512x32 .i32) (k : Fin k1_t1_loop.trips) : FVec F S1x512x512 .bf16 :=
  k1_pay2 v0 (k1_pay3 (0#32) (1#32) k)
    (k1_pay11 (k1_pay1 v0) (k1_pay3 (0#32) (1#32) k)
      (k1_pay9 (k1_pay1 v0) (k1_pay3 (0#32) (1#32) k)
        (k1_pay6 (k1_pay1 v0) (k1_pay3 (0#32) (1#32) k) (k1_pay4 (k1_pay1 v0) (0#32) (1#32) k)
          (k1_pay5 (k1_pay1 v0) (0#32) (1#32) k))
        (k1_pay7 (k1_pay1 v0)) (k1_pay8 (k1_pay3 (0#32) (1#32) k)))
      (k1_pay10 (k1_pay1 v0) (k1_pay3 (0#32) (1#32) k)))
    (k1_pay12 (k1_pay1 v0)) (k1_pay13 (k1_pay3 (0#32) (1#32) k))

/-- Every word position is a one-column slice of the [512, 32] token block. -/
theorem wordSlices : ∀ w : Fin 32, S512x32.Slices ![0, w.val] S512x1 := by decide

/-- The 32 word terms added, in order of the word position, onto the zero splat. -/
def accWords (v1 : IVec S512x32 32) (v9 : IVec S1x512 32) : FVec F S512x512 .bf16 :=
  (List.finRange 32).foldl (fun acc w => addf acc (wordTerm v1 v9 ![0, w.val] (wordSlices w)))
    (broadcast S512x512 (Scalar.ofBits .bf16 0x0000#16))

/-- The stored value is that sum over the token block read as [512, 32] and the chunk's words, as a [1, 512, 512] block. -/
theorem chunkPay_eq (v0 : Vec F S1x512x32 .i32) (k : Fin k1_t1_loop.trips) :
    chunkPay v0 k = shapeCast S1x512x512 (accWords (F := F) (k1_pay1 v0) (k1_pay3 (0#32) (1#32) k)) shapeCasts_S512x512_S1x512x512 := by
  rfl

/-- A left fold of word terms read at (p, q): the start value there plus the listed positions' indicator sum. -/
theorem foldWords_apply (v1 : IVec S512x32 32) (v9 : IVec S1x512 32) (p q : Fin 512) :
    ∀ (L : List (Fin 32)) (z : FVec Ideal S512x512 .bf16),
      L.foldl (fun acc w => addf acc (wordTerm (F := Ideal) v1 v9 ![0, w.val] (wordSlices w))) z (ix2 p q)
        = z (ix2 p q) + (L.map fun w => if v1 (ix2 p w) = v9 (ix2 (0 : Fin 1) q) then (1 : EReal) else 0).sum
  | [], z => (add_zero _).symm
  | a :: L, z => by
    rw [List.foldl_cons, foldWords_apply v1 v9 p q L, addf_apply, wordTerm_apply v1 v9 _ _ a rfl rfl, List.map_cons,
      List.sum_cons, add_assoc]

/-- The 32 word terms added at (p, q): how many of token p's words equal the chunk's word q. -/
theorem accWords_apply (v1 : IVec S512x32 32) (v9 : IVec S1x512 32) (p q : Fin 512) :
    accWords (F := Ideal) v1 v9 (ix2 p q) = ∑ w : Fin 32, if v1 (ix2 p w) = v9 (ix2 (0 : Fin 1) q) then (1 : EReal) else 0 := by
  unfold accWords
  rw [foldWords_apply, Fin.sum_univ_def]
  show Ideal.ofBits .bf16 0x0000#16 + _ = _
  rw [Ideal.ofBits_zero_bf16, zero_add]

/-- The chunk's word at lane q in trip k is the word 512 k + q. -/
theorem chunkWord_apply (k : Fin k1_t1_loop.trips) (q : Fin 512) :
    k1_pay3 (0#32) (1#32) k (ix2 (0 : Fin 1) q) = BitVec.ofNat 32 (512 * k.val + q.val) := by
  show IntOp.addi (Scalar.muli (Scalar.addi 0#32 (Scalar.muli (Scf.iv (0#32) (1#32) k) 1#32)) 512#32)
      (iota .tc S1x512 32 [1] iota_S1x512_d1_w32 (ix2 (0 : Fin 1) q)) = _
  rw [iota_single_apply]
  show (0#32 + (0#32 + BitVec.ofNat 32 k.val * 1#32) * 1#32) * 512#32 + BitVec.ofNat 32 q.val = _
  rw [BitVec.ofNat_add, BitVec.ofNat_mul]
  simp only [BitVec.zero_add, BitVec.mul_one]
  rw [BitVec.mul_comm]

/-- The token block read as [512, 32] at (p, w) is the loaded block at (0, p, w). -/
theorem tokenWord_apply (v0 : Vec F S1x512x32 .i32) (p : Fin 512) (w : Fin 32) :
    k1_pay1 v0 (ix2 p w) = v0 (ix3 (0 : Fin 1) p w) := by
  refine (shapeCast_dropUnit_apply ![512, 32] v0 shapeCasts_S1x512x32_S512x32 (ix2 p w)).trans (congrArg v0 ?_)
  funext a
  match a with
  | ⟨0, _⟩ => rfl
  | ⟨1, _⟩ => rfl
  | ⟨2, _⟩ => rfl

/-- WHAT TRIP k STORES at (0, p, q): how many of token p's 32 words equal the word 512 k + q. -/
theorem chunkPay_apply (v0 : S1x512x32.Idx → BitVec 32) (k : Fin k1_t1_loop.trips) (p q : Fin 512) :
    chunkPay (F := Ideal) v0 k (ix3 (0 : Fin 1) p q)
      = ∑ w : Fin 32, if v0 (ix3 (0 : Fin 1) p w) = BitVec.ofNat 32 (512 * k.val + q.val) then (1 : EReal) else 0 := by
  rw [chunkPay_eq]
  refine (shapeCast_addUnit_apply ![512, 512] _ shapeCasts_S512x512_S1x512x512 (ix3 (0 : Fin 1) p q)).trans ?_
  have hj : (fun a : Fin 2 => (ix3 (0 : Fin 1) p q) a.succ) = ix2 p q := by
    funext a
    match a with
    | ⟨0, _⟩ => rfl
    | ⟨1, _⟩ => rfl
  rw [hj, accWords_apply, chunkWord_apply]
  refine Finset.sum_congr rfl fun w _ => ?_
  rw [tokenWord_apply]

/-! ## The body's pieces, and the block they leave -/

/-- The run's pieces are the 8 trips' pieces over the loaded token block. -/
theorem run_pieces (c : Dev nD) (i : grid1.Coords) (arg2 : Memref sig .tc .vmem S1x512x32 .i32) (harg2 : arg2.IsWhole) (arg3 : Memref sig .tc .vmem S1x512x4096 .bf16) (harg3 : arg3.IsWhole)
    (x0 : Vec F S1x512x32 .i32) : (kernelRun1_A c i arg2 harg2 arg3 harg3 x0).1 = pb_k1_t1 Variants.none c none i arg2 harg2 arg3 harg3 x0 8 := by
  unfold kernelRun1_A
  dsimp only
  sl_unfold_words
  simp only [View.readAt_eq_ld, harg2.read_unread, View.ld_unit_zero (S := S1x512x32) hz3]
  rfl

/-- Trip k's one piece: the chunk's value stored at columns 512 k … 512 k + 511. -/
theorem trip_piece (c : Dev nD) (i : grid1.Coords) (arg2 : Memref sig .tc .vmem S1x512x32 .i32) (harg2 : arg2.IsWhole) (arg3 : Memref sig .tc .vmem S1x512x4096 .bf16) (harg3 : arg3.IsWhole)
    (v0 : Vec F S1x512x32 .i32) (k : Fin k1_t1_loop.trips) :
    tripL_k1_t1 Variants.none c none i arg2 harg2 arg3 harg3 v0 k
      = [⟨Rect.unit (s := S1x512x4096) (k1_off1 k) S1x512x512.size (k1_off1_inb k), chunkPay v0 k⟩] := by
  unfold tripL_k1_t1 trip_k1_t1
  dsimp only
  sl_unfold_run_names
  rfl

/-- The [1, 512, 4096] block a grid point leaves, as one function of the token block it loaded: entry (0, p, d) is the
    number of token p's 32 words equal to d. -/
def blockHist (x0 : S1x512x32.Idx → BitVec 32) : S1x512x4096.Idx → EReal := fun y =>
  ∑ w : Fin 32, if x0 (ix3 (0 : Fin 1) (⟨(y 1).val, (y 1).isLt⟩ : Fin 512) w) = BitVec.ofNat 32 (y 2).val then (1 : EReal) else 0

theorem blockHist_apply (x0 : S1x512x32.Idx → BitVec 32) (y : S1x512x4096.Idx) (p : Fin 512) (d : Nat)
    (hp : (y 1).val = p.val) (hd : (y 2).val = d) :
    blockHist x0 y = ∑ w : Fin 32, if x0 (ix3 (0 : Fin 1) p w) = BitVec.ofNat 32 d then (1 : EReal) else 0 := by
  unfold blockHist
  have e : (⟨(y 1).val, (y 1).isLt⟩ : Fin 512) = p := Fin.ext hp
  rw [e, hd]

/-- Trip k's stored value is the block function under the trip's rectangle. -/
theorem chunk_agrees (x0 : S1x512x32.Idx → BitVec 32) (k : Fin k1_t1_loop.trips) (x : S1x512x512.Idx) :
    chunkPay (F := Ideal) x0 k x
      = blockHist x0 ((Rect.unit (s := S1x512x4096) (k1_off1 k) S1x512x512.size (k1_off1_inb k)).emb x) := by
  obtain ⟨a, p, q, rfl⟩ : ∃ (a : Fin 1) (p q : Fin 512), x = ix3 a p q := ⟨x 0, x 1, x 2, eq_ix3 x⟩
  obtain rfl : a = 0 := Subsingleton.elim _ _
  rw [chunkPay_apply]
  refine (blockHist_apply x0 _ p (512 * k.val + q.val) ?_ ?_).symm
  · rw [Rect.emb_apply, Rect.off_unit, Rect.stride_unit]
    show k1_off1 k 1 + 1 * p.val = p.val
    rw [congrFun (k1_off1_eq k) 1]
    show 0 + 1 * p.val = p.val
    omega
  · rw [Rect.emb_apply, Rect.off_unit, Rect.stride_unit]
    show k1_off1 k 2 + 1 * q.val = 512 * k.val + q.val
    rw [congrFun (k1_off1_eq k) 2]
    show 512 * k.val + 1 * q.val = 512 * k.val + q.val
    omega

theorem trips_eq : k1_t1_loop.trips = 8 := by decide

/-- Every piece of the trips before n is the block function under its own rectangle. -/
theorem pieces_agree (c : Dev nD) (i : grid1.Coords) (arg2 : Memref sig .tc .vmem S1x512x32 .i32) (harg2 : arg2.IsWhole) (arg3 : Memref sig .tc .vmem S1x512x4096 .bf16) (harg3 : arg3.IsWhole)
    (x0 : Vec Ideal S1x512x32 .i32) :
    ∀ n : Nat, n ≤ 8 → ∀ pc ∈ pb_k1_t1 (F := Ideal) Variants.none c none i arg2 harg2 arg3 harg3 x0 n,
      ∀ x : pc.1.shape.Idx, pc.2 x = blockHist x0 (pc.1.emb x)
  | 0, _, pc, hpc => by
    rw [pb_k1_t1.eq_1] at hpc
    exact absurd hpc List.not_mem_nil
  | n + 1, hn, pc, hpc => by
    have hlt : n < k1_t1_loop.trips := by rw [trips_eq]; omega
    rw [show n + 1 = (⟨n, hlt⟩ : Fin k1_t1_loop.trips).val + 1 from rfl, pb_k1_t1_succ, trip_piece] at hpc
    rcases List.mem_append.mp hpc with h | h
    · obtain rfl := List.mem_singleton.mp h
      exact fun x => chunk_agrees x0 ⟨n, hlt⟩ x
    · exact pieces_agree c i arg2 harg2 arg3 harg3 x0 n (by omega) pc h

/-- WHAT THE BODY LEAVES in the output's staging buffer: the block function of the token block it loaded. -/
theorem block_eq (c : Dev nD) (i : grid1.Coords) (arg2 : Memref sig .tc .vmem S1x512x32 .i32) (harg2 : arg2.IsWhole) (arg3 : Memref sig .tc .vmem S1x512x4096 .bf16) (harg3 : arg3.IsWhole)
    (x0 : Vec Ideal S1x512x32 .i32) : out1_A_1 (F := Ideal) c i arg2 harg2 arg3 harg3 x0 = blockHist x0 := by
  unfold out1_A_1
  rw [View.read_writes_eq_canon _ _ _ (cover1_A_1 c i arg2 harg2 arg3 harg3 x0)]
  funext y
  refine View.canon_apply_of_pieces (blockHist x0) _ ?_ y (cover1_A_1 c i arg2 harg2 arg3 harg3 x0 y)
  rw [run_pieces]
  exact pieces_agree c i arg2 harg2 arg3 harg3 x0 8 (Nat.le_refl 8)

/-! ## From blocks to the array -/

/-- The block function of a token block that is rows of the index array is the histogram array's entries there. -/
theorem blockHist_eq_hist (X : Cert.Overlap.SIdx.Idx → BitVec 32) (x0 : S1x512x32.Idx → BitVec 32)
    (y : S1x512x4096.Idx) (i : Cert.Overlap.SHist.Idx) (hd : (y 2).val = (i 2).val)
    (hx : ∀ w : Fin 32, x0 (ix3 (0 : Fin 1) (⟨(y 1).val, (y 1).isLt⟩ : Fin 512) w)
      = X (ix3 (⟨(i 0).val, (i 0).isLt⟩ : Fin 2) (⟨(i 1).val, (i 1).isLt⟩ : Fin 1536) w)) :
    blockHist x0 y = Cert.Overlap.hist X i := by
  unfold blockHist Cert.Overlap.hist Cert.Overlap.count
  refine Finset.sum_congr rfl fun w _ => ?_
  rw [hx w, hd]

/-- The printed index maps over the grid: the token window and the histogram window move together, block (b, s, 0). -/
theorem idx_facts : ∀ t : Fin cfg1.N, win1_0.index t (0 : Fin 3) = win1_1.index t (0 : Fin 3)
    ∧ win1_0.index t (1 : Fin 3) = win1_1.index t (1 : Fin 3)
    ∧ win1_0.index t (2 : Fin 3) = 0 ∧ win1_1.index t (2 : Fin 3) = 0
    ∧ win1_1.index t (0 : Fin 3) ≤ 1 ∧ win1_1.index t (1 : Fin 3) ≤ 2 :=
  (by decide +kernel : ∀ t : Fin grid1.N, _)

/-- Every block (b, s, 0) of the histogram array is some point's. -/
theorem idx_onto : ∀ (b : Fin 2) (s : Fin 3), ∃ t : Fin cfg1.N, win1_1.index t = ![b.val, s.val, 0] :=
  (by decide +kernel : ∀ (b : Fin 2) (s : Fin 3), ∃ t : Fin grid1.N, win1_1.index t = ![b.val, s.val, 0])

/-- WHAT POINT t WRITES BACK is block t of the histogram of the index array as the region finds it. -/
theorem flushed_eq (V : (c : Dev nD) → (b : Ref sig .tc) → Buf (Elt Ideal) ((c : Thread nD τ).loc b)) (c : Dev nD) (t : Fin cfg1.N) :
    (dat1 (F := Ideal) V c).flushed 1 t = ((cfg1.win 1).blk t).view.read (Elt Ideal) (Cert.Overlap.hist (V c main_arg1)) := by
  show (cfg1.win 1).cut (grid1.coords t) ((dat1 (F := Ideal) V c).after 1 t) = _
  rw [after1_1]
  unfold outsAt1
  rw [block_eq]
  obtain ⟨e0, e1, e2, e3, e4, e5⟩ := idx_facts t
  funext j
  have hj0 : (j 0).val < 1 := (j 0).isLt
  have hj1 : (j 1).val < 512 := (j 1).isLt
  have hj2 : (j 2).val < 4096 := (j 2).isLt
  show blockHist (iblk1 V c 0 t) j = Cert.Overlap.hist (V c main_arg1) (((cfg1.win 1).blk t).view.emb j)
  refine blockHist_eq_hist (V c main_arg1) (iblk1 V c 0 t) j (((cfg1.win 1).blk t).view.emb j) ?_ ?_
  · show (j 2).val = win1_1.index t (2 : Fin 3) * 4096 + 1 * (j 2).val
    omega
  · intro w
    show V c main_arg1 (((cfg1.win 0).blk t).view.emb (ix3 (0 : Fin 1) (⟨(j 1).val, (j 1).isLt⟩ : Fin 512) w)) = V c main_arg1 _
    refine congrArg (V c main_arg1) ?_
    funext a
    apply Fin.ext
    match a with
    | ⟨0, _⟩ => show win1_0.index t (0 : Fin 3) * 1 + 1 * 0 = win1_1.index t (0 : Fin 3) * 1 + 1 * (j 0).val; omega
    | ⟨1, _⟩ => show win1_0.index t (1 : Fin 3) * 512 + 1 * (j 1).val = win1_1.index t (1 : Fin 3) * 512 + 1 * (j 1).val; omega
    | ⟨2, _⟩ => show win1_0.index t (2 : Fin 3) * 32 + 1 * w.val = w.val; omega

/-- An index of the histogram array is in point t's block iff each coordinate is in the block's range on its axis. -/
theorem mem_blk (t : Fin cfg1.N) (i : S2x1536x4096.Idx) :
    i ∈ ((cfg1.win 1).blk t).view.set ↔ ∀ a : Fin 3, win1_1.index t a * S1x512x4096.size a ≤ (i a).val ∧ (i a).val < win1_1.index t a * S1x512x4096.size a + S1x512x4096.size a := by
  show i ∈ ((View.whole main_v1).slice (win1_1.rect t)).set ↔ _
  rw [View.set_slice_whole, Rect.mem_set_unit]
  exact Iff.rfl

/-- The 2 x 3 blocks tile the array: entry (b, s, d) lies in the block of the point with block index (b, s / 512, 0). -/
theorem covered (i : S2x1536x4096.Idx) : ∃ t : Fin cfg1.N, (cfg1.win 1).flush t = true ∧ i ∈ ((cfg1.win 1).blk t).view.set := by
  have hi0 : (i 0).val < 2 := (i 0).isLt
  have hi1 : (i 1).val < 1536 := (i 1).isLt
  have hi2 : (i 2).val < 4096 := (i 2).isLt
  obtain ⟨t, ht⟩ := idx_onto ⟨(i 0).val, hi0⟩ ⟨(i 1).val / 512, by omega⟩
  have q0 : win1_1.index t (0 : Fin 3) = (i 0).val := congrFun ht 0
  have q1 : win1_1.index t (1 : Fin 3) = (i 1).val / 512 := congrFun ht 1
  have q2 : win1_1.index t (2 : Fin 3) = 0 := congrFun ht 2
  refine ⟨t, flush1_1 t, ?_⟩
  rw [mem_blk]
  intro a
  match a with
  | ⟨0, _⟩ => show win1_1.index t (0 : Fin 3) * 1 ≤ (i 0).val ∧ (i 0).val < win1_1.index t (0 : Fin 3) * 1 + 1; omega
  | ⟨1, _⟩ => show win1_1.index t (1 : Fin 3) * 512 ≤ (i 1).val ∧ (i 1).val < win1_1.index t (1 : Fin 3) * 512 + 512; omega
  | ⟨2, _⟩ => show win1_1.index t (2 : Fin 3) * 4096 ≤ (i 2).val ∧ (i 2).val < win1_1.index t (2 : Fin 3) * 4096 + 4096; omega

/-- After region 1 its output array is the histogram of the index array it was entered with. -/
theorem hist1_arr (V : (c : Dev nD) → (b : Ref sig .tc) → Buf (Elt Ideal) ((c : Thread nD τ).loc b)) (c : Dev nD) :
    (dat1 (F := Ideal) V c).arrAt 1 cfg1.N = Cert.Overlap.hist (V c main_arg1) :=
  (dat1 (F := Ideal) V c).arrAt_eq_of_cover 1 (Cert.Overlap.hist (V c main_arg1)) (fun t _ => flushed_eq V c t) covered

end Cert.KernelIdeal.Hist1

end
-- ==== Proof.KernelMat.lean ====
/-
  The third region of the idealized kernel: at grid point (b, i, j) the body multiplies the [512, 4096] block (b, i) of
  the first array by the transpose of the block (b, j) of the second on the matrix unit, into a zero accumulator, and
  stores the [512, 512] product as block (b, i, j) of the result. At the ideal instance the product's entry (p, q) is
  the exact sum over the 4096 words of row p times row q, so every block is the block of ONE function of the two
  arrays, their contraction over the word axis; the 2 x 3 x 3 blocks tile the result.
-/
import proofs.«418196_j30021821399043_2_alg».proof.Proof.Gen.KernelIdeal.Frame
import proofs.«418196_j30021821399043_2_alg».proof.Proof.Spec
import Idealize.ShloMosaic.PureOps.Ideal.Laws
import Idealize.ShloMosaic.Lib.Pipeline.Value
import Idealize.ShloMosaic.Lib.ValueLayout
import Idealize.ShloMosaic.Lib.ValueIdx

set_option maxRecDepth 16384

noncomputable section

open Idealize.ShloMosaic Idealize.ShloMosaic.TcCoe Idealize.SL.Sem

namespace Cert.KernelIdeal.Mat

open Cert.KernelIdeal Cert.KernelIdeal.Gen Idealize.ShloMosaic.ValueIdx

/-! ## The body's product at an index -/

theorem lhs_axis0 (j : S512x512.Idx) (q : dot_S512x4096_S512x4096_S512x512_1_1_0_0_n_n.contr.Idx) :
    (dot_S512x4096_S512x4096_S512x512_1_1_0_0_n_n.lhsIdx j q 0).val = (j 0).val := by
  unfold DotDims.lhsIdx
  rw [dif_neg (show ¬(0 : Fin S512x4096.rank) ∈ dot_S512x4096_S512x4096_S512x512_1_1_0_0_n_n.lhsBatch by decide),
    dif_pos (show (0 : Fin S512x4096.rank) ∈ dot_S512x4096_S512x4096_S512x512_1_1_0_0_n_n.lhsNonContracting by decide)]
  rfl
theorem lhs_axis1 (j : S512x512.Idx) (q : dot_S512x4096_S512x4096_S512x512_1_1_0_0_n_n.contr.Idx) :
    (dot_S512x4096_S512x4096_S512x512_1_1_0_0_n_n.lhsIdx j q 1).val = (q ⟨0, by decide⟩).val :=
  dot_S512x4096_S512x4096_S512x512_1_1_0_0_n_n.lhsIdx_val_of_single rfl j q
theorem rhs_axis0 (j : S512x512.Idx) (q : dot_S512x4096_S512x4096_S512x512_1_1_0_0_n_n.contr.Idx) :
    (dot_S512x4096_S512x4096_S512x512_1_1_0_0_n_n.rhsIdx j q 0).val = (j 1).val := by
  unfold DotDims.rhsIdx
  rw [dif_neg (show ¬(0 : Fin S512x4096.rank) ∈ dot_S512x4096_S512x4096_S512x512_1_1_0_0_n_n.rhsBatch by decide),
    dif_pos (show (0 : Fin S512x4096.rank) ∈ dot_S512x4096_S512x4096_S512x512_1_1_0_0_n_n.rhsNonContracting by decide)]
  rfl
theorem rhs_axis1 (j : S512x512.Idx) (q : dot_S512x4096_S512x4096_S512x512_1_1_0_0_n_n.contr.Idx) :
    (dot_S512x4096_S512x4096_S512x512_1_1_0_0_n_n.rhsIdx j q 1).val = (q ⟨0, by decide⟩).val :=
  dot_S512x4096_S512x4096_S512x512_1_1_0_0_n_n.rhsIdx_val_of_single rfl j q

/-- The body's one store at (0, p, q): row p of the first block times row q of the second, summed over the 4096 words. -/
theorem pay_apply (x0 x1 : Vec Ideal S1x512x4096 .bf16) (p q : Fin 512) :
    k2_pay1 (F := Ideal) x0 x1 (ix3 (0 : Fin 1) p q)
      = ∑ d : Fin 4096, x0 (ix3 (0 : Fin 1) p d) * x1 (ix3 (0 : Fin 1) q d) := by
  unfold k2_pay1
  rw [shapeCast_ab_1ab_apply]
  simp only [matmul]
  rw [Ideal.matmul_constant_zero_apply,
    ← Equiv.sum_comp (contrEquiv1 dot_S512x4096_S512x4096_S512x512_1_1_0_0_n_n 4096 rfl rfl).symm]
  refine Finset.sum_congr rfl fun k _ => ?_
  have hk := contrEquiv1_symm_val dot_S512x4096_S512x4096_S512x512_1_1_0_0_n_n 4096 rfl rfl k
  have el : dot_S512x4096_S512x4096_S512x512_1_1_0_0_n_n.lhsIdx (ix2 p q)
      ((contrEquiv1 dot_S512x4096_S512x4096_S512x512_1_1_0_0_n_n 4096 rfl rfl).symm k) = ix2 p k :=
    funext fun a => Fin.ext (by
      match a with
      | ⟨0, _⟩ => exact lhs_axis0 _ _
      | ⟨1, _⟩ => exact (lhs_axis1 _ _).trans hk)
  have er : dot_S512x4096_S512x4096_S512x512_1_1_0_0_n_n.rhsIdx (ix2 p q)
      ((contrEquiv1 dot_S512x4096_S512x4096_S512x512_1_1_0_0_n_n 4096 rfl rfl).symm k) = ix2 q k :=
    funext fun a => Fin.ext (by
      match a with
      | ⟨0, _⟩ => exact rhs_axis0 _ _
      | ⟨1, _⟩ => exact (rhs_axis1 _ _).trans hk)
  rw [el, er, shapeCast_1ab_ab_apply, shapeCast_1ab_ab_apply]

/-- The same at any index of the [1, 512, 512] block. -/
theorem pay_apply_idx (x0 x1 : Vec Ideal S1x512x4096 .bf16) (j : S1x512x512.Idx) :
    k2_pay1 (F := Ideal) x0 x1 j
      = ∑ d : Fin 4096, x0 (ix3 (0 : Fin 1) (⟨(j 1).val, (j 1).isLt⟩ : Fin 512) d)
          * x1 (ix3 (0 : Fin 1) (⟨(j 2).val, (j 2).isLt⟩ : Fin 512) d) := by
  have hj : j = ix3 (0 : Fin 1) (⟨(j 1).val, (j 1).isLt⟩ : Fin 512) (⟨(j 2).val, (j 2).isLt⟩ : Fin 512) := by
    funext a
    match a with
    | ⟨0, _⟩ => exact Fin.ext (by have h1 : (j 0).val < 1 := (j 0).isLt; show (j 0).val = 0; omega)
    | ⟨1, _⟩ => rfl
    | ⟨2, _⟩ => rfl
  exact (congrArg (k2_pay1 (F := Ideal) x0 x1) hj).trans (pay_apply x0 x1 _ _)

/-! ## From blocks to the array -/

variable (V : (c : Dev nD) → (b : Ref sig .tc) → Buf (Elt Ideal) ((c : Thread nD τ).loc b))

theorem hz3 : (![0, 0, 0] : Fin 3 → Nat) = fun _ => 0 := funext fun a => by fin_cases a <;> rfl

/-- The three index maps over the grid (b, i, j): the first operand's block is (b, i, 0), the second's (b, j, 0), the
    result's (b, i, j). -/
theorem idx_facts : ∀ t : Fin cfg2.N,
    win2_0.index t (0 : Fin 3) = win2_2.index t (0 : Fin 3) ∧ win2_0.index t (1 : Fin 3) = win2_2.index t (1 : Fin 3)
    ∧ win2_0.index t (2 : Fin 3) = 0
    ∧ win2_1.index t (0 : Fin 3) = win2_2.index t (0 : Fin 3) ∧ win2_1.index t (1 : Fin 3) = win2_2.index t (2 : Fin 3)
    ∧ win2_1.index t (2 : Fin 3) = 0
    ∧ win2_2.index t (0 : Fin 3) ≤ 1 ∧ win2_2.index t (1 : Fin 3) ≤ 2 ∧ win2_2.index t (2 : Fin 3) ≤ 2 :=
  (by decide +kernel : ∀ t : Fin grid2.N, _)

/-- Every block of the result is some grid point's. -/
theorem idx_onto : ∀ (q0 : Fin 2) (q1 : Fin 3) (q2 : Fin 3), ∃ t : Fin cfg2.N, win2_2.index t = ![q0.val, q1.val, q2.val] :=
  (by decide +kernel : ∀ (q0 : Fin 2) (q1 : Fin 3) (q2 : Fin 3), ∃ t : Fin grid2.N, win2_2.index t = ![q0.val, q1.val, q2.val])

/-- What grid point t writes back is its block of the contraction of the two arrays the region reads. -/
theorem flushed_eq (c : Dev nD) (t : Fin cfg2.N) :
    (dat2 (F := Ideal) V c).flushed 2 t
      = ((cfg2.win 2).blk t).view.read (Elt Ideal) (Cert.Overlap.contract (V c main_v0) (V c main_v1)) := by
  show (cfg2.win 2).cut (grid2.coords t) ((dat2 V c).after 2 t) = _
  rw [after2_2]
  unfold out2_2
  rw [View.canon_unit_zero hz3]
  simp only [View.ld_unit_zero (S := S1x512x4096) hz3]
  obtain ⟨e00, e01, e02, e10, e11, e12, -, -, -⟩ := idx_facts t
  funext j
  show k2_pay1 (F := Ideal) (iblk2 V c 0 t) (iblk2 V c 1 t) j
    = Cert.Overlap.contract (V c main_v0) (V c main_v1) (((cfg2.win 2).blk t).view.emb j)
  refine (pay_apply_idx _ _ j).trans ?_
  unfold Cert.Overlap.contract
  refine Finset.sum_congr rfl fun d _ => ?_
  have hj0 : (j 0).val < 1 := (j 0).isLt
  have hj1 : (j 1).val < 512 := (j 1).isLt
  have hj2 : (j 2).val < 512 := (j 2).isLt
  have h0 : iblk2 V c 0 t (ix3 (0 : Fin 1) (⟨(j 1).val, (j 1).isLt⟩ : Fin 512) d)
      = V c main_v0 (ix3 (⟨((((cfg2.win 2).blk t).view.emb j) 0).val, ((((cfg2.win 2).blk t).view.emb j) 0).isLt⟩ : Fin 2)
          (⟨((((cfg2.win 2).blk t).view.emb j) 1).val, ((((cfg2.win 2).blk t).view.emb j) 1).isLt⟩ : Fin 1536) d) := by
    show V c main_v0 (((cfg2.win 0).blk t).view.emb (ix3 (0 : Fin 1) (⟨(j 1).val, (j 1).isLt⟩ : Fin 512) d)) = _
    refine congrArg (V c main_v0) (funext fun a => Fin.ext ?_)
    match a with
    | ⟨0, _⟩ =>
      show win2_0.index t (0 : Fin 3) * 1 + 1 * 0 = win2_2.index t (0 : Fin 3) * 1 + 1 * (j 0).val
      omega
    | ⟨1, _⟩ =>
      show win2_0.index t (1 : Fin 3) * 512 + 1 * (j 1).val = win2_2.index t (1 : Fin 3) * 512 + 1 * (j 1).val
      omega
    | ⟨2, _⟩ =>
      show win2_0.index t (2 : Fin 3) * 4096 + 1 * d.val = d.val
      omega
  have h1 : iblk2 V c 1 t (ix3 (0 : Fin 1) (⟨(j 2).val, (j 2).isLt⟩ : Fin 512) d)
      = V c main_v1 (ix3 (⟨((((cfg2.win 2).blk t).view.emb j) 0).val, ((((cfg2.win 2).blk t).view.emb j) 0).isLt⟩ : Fin 2)
          (⟨((((cfg2.win 2).blk t).view.emb j) 2).val, ((((cfg2.win 2).blk t).view.emb j) 2).isLt⟩ : Fin 1536) d) := by
    show V c main_v1 (((cfg2.win 1).blk t).view.emb (ix3 (0 : Fin 1) (⟨(j 2).val, (j 2).isLt⟩ : Fin 512) d)) = _
    refine congrArg (V c main_v1) (funext fun a => Fin.ext ?_)
    match a with
    | ⟨0, _⟩ =>
      show win2_1.index t (0 : Fin 3) * 1 + 1 * 0 = win2_2.index t (0 : Fin 3) * 1 + 1 * (j 0).val
      omega
    | ⟨1, _⟩ =>
      show win2_1.index t (1 : Fin 3) * 512 + 1 * (j 2).val = win2_2.index t (2 : Fin 3) * 512 + 1 * (j 2).val
      omega
    | ⟨2, _⟩ =>
      show win2_1.index t (2 : Fin 3) * 4096 + 1 * d.val = d.val
      omega
  rw [h0, h1]

/-- An index of the result array lies in grid point t's block iff every coordinate lies in the block's range. -/
theorem mem_blk (t : Fin cfg2.N) (i : S2x1536x1536.Idx) :
    i ∈ ((cfg2.win 2).blk t).view.set ↔ ∀ a : Fin 3, win2_2.index t a * S1x512x512.size a ≤ (i a).val
      ∧ (i a).val < win2_2.index t a * S1x512x512.size a + S1x512x512.size a := by
  show i ∈ ((View.whole main_v2).slice (win2_2.rect t)).set ↔ _
  rw [View.set_slice_whole, Rect.mem_set_unit]
  exact Iff.rfl

/-- The 2 x 3 x 3 blocks of [1, 512, 512] tile the [2, 1536, 1536] result: entry (b, r, s) is in block (b, r / 512, s / 512). -/
theorem cover (i : S2x1536x1536.Idx) :
    ∃ t : Fin cfg2.N, (cfg2.win 2).flush t = true ∧ i ∈ ((cfg2.win 2).blk t).view.set := by
  have hi0 : (i 0).val < 2 := (i 0).isLt
  have hi1 : (i 1).val < 1536 := (i 1).isLt
  have hi2 : (i 2).val < 1536 := (i 2).isLt
  obtain ⟨t, ht⟩ := idx_onto ⟨(i 0).val, hi0⟩ ⟨(i 1).val / 512, by omega⟩ ⟨(i 2).val / 512, by omega⟩
  have q0 : win2_2.index t (0 : Fin 3) = (i 0).val := congrFun ht 0
  have q1 : win2_2.index t (1 : Fin 3) = (i 1).val / 512 := congrFun ht 1
  have q2 : win2_2.index t (2 : Fin 3) = (i 2).val / 512 := congrFun ht 2
  refine ⟨t, flush2_2 t, ?_⟩
  rw [mem_blk]
  intro a
  match a with
  | ⟨0, _⟩ =>
    show win2_2.index t (0 : Fin 3) * 1 ≤ (i 0).val ∧ (i 0).val < win2_2.index t (0 : Fin 3) * 1 + 1
    omega
  | ⟨1, _⟩ =>
    show win2_2.index t (1 : Fin 3) * 512 ≤ (i 1).val ∧ (i 1).val < win2_2.index t (1 : Fin 3) * 512 + 512
    omega
  | ⟨2, _⟩ =>
    show win2_2.index t (2 : Fin 3) * 512 ≤ (i 2).val ∧ (i 2).val < win2_2.index t (2 : Fin 3) * 512 + 512
    omega

/-- After region 2 its output array is the two histogram arrays it was entered with, contracted over the word axis. -/
theorem mat_arr (c : Dev nD) :
    (dat2 (F := Ideal) V c).arrAt 2 cfg2.N = Cert.Overlap.contract (V c main_v0) (V c main_v1) :=
  (dat2 (F := Ideal) V c).arrAt_eq_of_cover 2 _ (fun t _ => flushed_eq V c t) cover

end Cert.KernelIdeal.Mat

end
-- ==== Proof.KernelValue.lean ====
/-
  The idealized kernel's result. The third region's output array is the contraction of the two arrays it reads; the
  first of those is what the first region left (the histogram of the first index array, untouched by the second
  region), the second what the second region left (the histogram of the second index array, which the first region
  does not touch). So the result array ends as the overlap of the two index arrays as launched.
-/
import proofs.«418196_j30021821399043_2_alg».proof.Proof.KernelRun
import proofs.«418196_j30021821399043_2_alg».proof.Proof.KernelHist0
import proofs.«418196_j30021821399043_2_alg».proof.Proof.KernelHist1
import proofs.«418196_j30021821399043_2_alg».proof.Proof.KernelMat

set_option maxRecDepth 16384

noncomputable section

open Idealize.ShloMosaic Idealize.ShloMosaic.TcCoe Idealize.SL.Sem

namespace Cert.KernelIdeal.Result

open Cert.KernelIdeal Cert.KernelIdeal.Gen

variable (m : (ℓ : Loc nD τ sig) → Buf (Elt Ideal) ℓ) (ρ : Dev nD → PrngReg)

/-- Entering the third region, the first histogram array is the histogram of the first argument. -/
theorem hist_q_arr (c : Dev nD) :
    V2 m ρ c main_v0 = Cert.Overlap.hist (m ((c : Thread nD τ).loc main_arg0)) := by
  show W2 m ρ c (Proc.devRef .tc main_v0) = _
  rw [W2_of_ne m ρ c main_v0 (by decide)]
  exact (W1_arr m ρ c 1).trans (Cert.KernelIdeal.Hist0.hist0_arr (V0 m ρ) c)

/-- The second region is entered with the second argument as launched. -/
theorem arg1_at_region1 (c : Dev nD) : V1 m ρ c main_arg1 = m ((c : Thread nD τ).loc main_arg1) := by
  show W1 m ρ c (Proc.devRef .tc main_arg1) = _
  rw [W1_of_ne m ρ c main_arg1 (by decide)]

/-- Entering the third region, the second histogram array is the histogram of the second argument. -/
theorem hist_k_arr (c : Dev nD) :
    V2 m ρ c main_v1 = Cert.Overlap.hist (m ((c : Thread nD τ).loc main_arg1)) := by
  show W2 m ρ c (Proc.devRef .tc main_v1) = _
  refine (W2_arr m ρ c 1).trans ((Cert.KernelIdeal.Hist1.hist1_arr (V1 m ρ) c).trans ?_)
  rw [arg1_at_region1]

/-- The result array after the run is the overlap of the argument arrays. -/
theorem result (c : Dev nD) :
    W3 m ρ c (Proc.devRef .tc main_v2)
      = Cert.Overlap.overlap (m ((c : Thread nD τ).loc main_arg0)) (m ((c : Thread nD τ).loc main_arg1)) := by
  refine (W3_arr m ρ c 2).trans ((Cert.KernelIdeal.Mat.mat_arr (V2 m ρ) c).trans ?_)
  rw [hist_q_arr, hist_k_arr]
  rfl

/-- The idealized kernel runs to the overlap of its arguments, which end unchanged. -/
theorem run : θ_run defs (onTc (τ := τ) (main (F := Ideal))) ⟨m, fun _ => 0, ρ⟩ (fun r => ∀ c : Dev nD,
      r.2.mem ((c.tc : Thread nD τ).loc main_v2)
        = Cert.Overlap.overlap (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (result m ρ c), (h c).2⟩)
    (Cert.KernelIdeal.Run.run_named m ρ)

end Cert.KernelIdeal.Result

end
-- ==== Proof.RefValue.lean ====
/-
  The reference at the ideal instance: a scatter-add of ones at (b, s, x[b, s, w]) into a zero array is the histogram
  of x when every word of x lies in [0, 4096) (the sign normalisation is then the identity and no update is dropped),
  and the dot_general of the two histograms over the word axis is their contraction.
-/
import proofs.«418196_j30021821399043_2_alg».proof.Proof.Gen.ReferenceIdeal.Read
import proofs.«418196_j30021821399043_2_alg».proof.Proof.Spec
import Idealize.ShloMosaic.Lib.StableHlo.Predicate

set_option maxRecDepth 16384

noncomputable section

open Idealize.ShloMosaic Idealize.ShloMosaic.TcCoe Idealize.SL.Sem

namespace Cert.ReferenceIdeal.RefValue

open Cert.ReferenceIdeal Cert.ReferenceIdeal.Gen Cert.ReferenceIdeal.Read
open Idealize.ShloMosaic.ValueIdx Idealize.ShloMosaic.StableHlo.Predicate

/-! ## Words

A word below 2^31 is not negative, so the reference's sign normalisation (add the extent to a negative index)
leaves it alone. -/

/-- `select (a < 0) (a + n) a` is `a` for a word `a` that is not negative. -/
theorem norm_select (a n : BitVec 32) (ha : a.toNat < 2 ^ 31) :
    Scalar.select (IntOp.cmpi .slt a 0#32) (IntOp.addi a n) a = a := by
  have hc : ¬ IntOp.cmpi .slt a 0#32 = 1#1 := fun hc => by
    have := (slt_iff_toNat ha (by decide)).1 hc
    simp at this
  rw [eq_zero_of_ne_one hc, select_zero]

/-- The word of a small natural number is small. -/
theorem ofNat_small (n : Nat) (hn : n < 2 ^ 31) : (BitVec.ofNat 32 n).toNat < 2 ^ 31 := by
  rw [BitVec.toNat_ofNat]; exact lt_of_le_of_lt (Nat.mod_le _ _) hn

/-- A word below 4096 equals the word of `d < 4096` exactly when its value is `d`. -/
theorem word_eq_iff (v : BitVec 32) (d : Nat) (hd : d < 4096) : v = BitVec.ofNat 32 d ↔ v.toNat = d := by
  constructor
  · rintro rfl; rw [BitVec.toNat_ofNat]; exact Nat.mod_eq_of_lt (by omega)
  · intro e; apply BitVec.eq_of_toNat_eq; rw [BitVec.toNat_ofNat, e]; exact (Nat.mod_eq_of_lt (by omega)).symm

/-- The pattern of the float one denotes one: sign 0, exponent 127 (the bias), fraction 0, so 2^23 · 2^(-23). -/
theorem ofBits_one : Ideal.ofBits .f32 0x3F800000#32 = 1 := by
  simp [Ideal.ofBits, Ideal.ieee]
  rw [← EReal.coe_mul, ← EReal.coe_one, EReal.coe_eq_coe_iff]
  norm_num

/-! ## Sums over a rank-3 index set -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Two histogram indices agree exactly when their three coordinates do. -/
theorem ix3_eq_iff (b : Fin 2) (s : Fin 1536) (d : Fin 4096) (i : S2x1536x4096.Idx) :
    (ix3 b s d : S2x1536x4096.Idx) = i ↔ b.val = (i 0).val ∧ s.val = (i 1).val ∧ d.val = (i 2).val := by
  constructor
  · rintro rfl; exact ⟨rfl, rfl, rfl⟩
  · rintro ⟨e0, e1, e2⟩
    funext a
    match a with
    | ⟨0, _⟩ => exact Fin.ext e0
    | ⟨1, _⟩ => exact Fin.ext e1
    | ⟨2, _⟩ => exact Fin.ext e2

/-! ## The index array: three [2, 1536, 32, 1] pieces joined on the last axis -/

section Concat
variable {α : Type} (p0 p1 p2 : S2x1536x32x1.Idx → α)
  (hc : Shape.Concatenates ([(⟨S2x1536x32x1, p0⟩ : (s : Shape) × (s.Idx → α)), ⟨S2x1536x32x1, p1⟩,
    ⟨S2x1536x32x1, p2⟩].map (·.1)) S2x1536x32x3 3)
  (b : Fin 2) (s : Fin 1536) (w : Fin 32)

/-- Component 0 of the joined array is the first piece. -/
theorem concat3_0 :
    concatenate S2x1536x32x3 3 [⟨S2x1536x32x1, p0⟩, ⟨S2x1536x32x1, p1⟩, ⟨S2x1536x32x1, p2⟩] hc (ix4 b s w (0 : Fin 3))
      = p0 (ix4 b s w (0 : Fin 1)) := by
  refine concatenate_apply_piece (3 : Fin 4) _ hc (ix4 b s w (0 : Fin 3)) 0 (by show (0 : Nat) < 3; omega)
    S2x1536x32x1 p0 rfl rfl 0 rfl (ix4 b s w (0 : Fin 1)) ?_ rfl
  intro e he
  match e with
  | ⟨0, _⟩ => rfl
  | ⟨1, _⟩ => rfl
  | ⟨2, _⟩ => rfl
  | ⟨3, _⟩ => exact absurd rfl he

/-- Component 1 of the joined array is the second piece. -/
theorem concat3_1 :
    concatenate S2x1536x32x3 3 [⟨S2x1536x32x1, p0⟩, ⟨S2x1536x32x1, p1⟩, ⟨S2x1536x32x1, p2⟩] hc (ix4 b s w (1 : Fin 3))
      = p1 (ix4 b s w (0 : Fin 1)) := by
  refine concatenate_apply_piece (3 : Fin 4) _ hc (ix4 b s w (1 : Fin 3)) 1 (by show (1 : Nat) < 3; omega)
    S2x1536x32x1 p1 rfl rfl 1 rfl (ix4 b s w (0 : Fin 1)) ?_ rfl
  intro e he
  match e with
  | ⟨0, _⟩ => rfl
  | ⟨1, _⟩ => rfl
  | ⟨2, _⟩ => rfl
  | ⟨3, _⟩ => exact absurd rfl he

/-- Component 2 of the joined array is the third piece. -/
theorem concat3_2 :
    concatenate S2x1536x32x3 3 [⟨S2x1536x32x1, p0⟩, ⟨S2x1536x32x1, p1⟩, ⟨S2x1536x32x1, p2⟩] hc (ix4 b s w (2 : Fin 3))
      = p2 (ix4 b s w (0 : Fin 1)) := by
  refine concatenate_apply_piece (3 : Fin 4) _ hc (ix4 b s w (2 : Fin 3)) 2 (by show (2 : Nat) < 3; omega)
    S2x1536x32x1 p2 rfl rfl 2 rfl (ix4 b s w (0 : Fin 1)) ?_ rfl
  intro e he
  match e with
  | ⟨0, _⟩ => rfl
  | ⟨1, _⟩ => rfl
  | ⟨2, _⟩ => rfl
  | ⟨3, _⟩ => exact absurd rfl he

end Concat

/-- The trailing unit axis dropped: the [2, 1536, 32, 1] index of (b, s, w) reads the [2, 1536, 32] array at (b, s, w). -/
theorem drop_unit (b : Fin 2) (s : Fin 1536) (w : Fin 32) :
    idx_main_v24 (ix4 b s w (0 : Fin 1)) = ix3 b s w := by
  funext e
  match e with
  | ⟨0, _⟩ => rfl
  | ⟨1, _⟩ => rfl
  | ⟨2, _⟩ => rfl

section FirstIndices
variable (x : S2x1536x32.Idx → BitVec 32) (b : Fin 2) (s : Fin 1536) (w : Fin 32)

/-- The first scatter's index vector at update (b, s, w): the batch coordinate, … -/
theorem v25_0 : val_main_v25 (F := Ideal) x (ix4 b s w 0) = BitVec.ofNat 32 b.val := by
  unfold val_main_v25
  rw [concat3_0, val_main_v22_apply, val_main_v20_apply, val_main_v9_apply, val_main_v6_apply, val_main_v8_apply,
    val_main_v5_apply, val_main_c_apply, val_main_v2_apply, val_main_v1_apply]
  exact norm_select (BitVec.ofNat 32 b.val) _ (ofNat_small b.val (by have := b.isLt; omega))

/-- … the token coordinate, … -/
theorem v25_1 : val_main_v25 (F := Ideal) x (ix4 b s w 1) = BitVec.ofNat 32 s.val := by
  unfold val_main_v25
  rw [concat3_1, val_main_v23_apply, val_main_v21_apply, val_main_v14_apply, val_main_v11_apply, val_main_v13_apply,
    val_main_v10_apply, val_main_c_1_apply, val_main_v4_apply, val_main_v3_apply]
  exact norm_select (BitVec.ofNat 32 s.val) _ (ofNat_small s.val (by have := s.isLt; omega))

/-- … and the word x[b, s, w] itself, which is not negative. -/
theorem v25_2 (h : ∀ i, (x i).toNat < 4096) : val_main_v25 (F := Ideal) x (ix4 b s w 2) = x (ix3 b s w) := by
  unfold val_main_v25
  rw [concat3_2, val_main_v24_apply, val_main_v19_apply, val_main_v16_apply, val_main_v18_apply,
    val_main_v15_apply, val_main_c_3_apply, drop_unit]
  exact norm_select _ _ (by have := h (ix3 b s w); omega)

end FirstIndices

section SecondIndices
variable (x : S2x1536x32.Idx → BitVec 32) (b : Fin 2) (s : Fin 1536) (w : Fin 32)

/-- The second scatter's index vector at update (b, s, w): the batch coordinate, … -/
theorem v53_0 : val_main_v53 (F := Ideal) x (ix4 b s w 0) = BitVec.ofNat 32 b.val := by
  unfold val_main_v53
  rw [concat3_0, val_main_v50_apply, val_main_v48_apply, val_main_v37_apply, val_main_v34_apply, val_main_v36_apply,
    val_main_v33_apply, val_main_c_7_apply, val_main_v30_apply, val_main_v29_apply]
  exact norm_select (BitVec.ofNat 32 b.val) _ (ofNat_small b.val (by have := b.isLt; omega))

/-- … the token coordinate, … -/
theorem v53_1 : val_main_v53 (F := Ideal) x (ix4 b s w 1) = BitVec.ofNat 32 s.val := by
  unfold val_main_v53
  rw [concat3_1, val_main_v51_apply, val_main_v49_apply, val_main_v42_apply, val_main_v39_apply, val_main_v41_apply,
    val_main_v38_apply, val_main_c_9_apply, val_main_v32_apply, val_main_v31_apply]
  exact norm_select (BitVec.ofNat 32 s.val) _ (ofNat_small s.val (by have := s.isLt; omega))

/-- … and the word x[b, s, w] itself, which is not negative. -/
theorem v53_2 (h : ∀ i, (x i).toNat < 4096) : val_main_v53 (F := Ideal) x (ix4 b s w 2) = x (ix3 b s w) := by
  unfold val_main_v53
  rw [concat3_2, val_main_v52_apply, val_main_v47_apply, val_main_v44_apply, val_main_v46_apply,
    val_main_v43_apply, val_main_c_11_apply]
  have e : idx_main_v52 (ix4 b s w (0 : Fin 1)) = ix3 b s w := drop_unit b s w
  rw [e]
  exact norm_select _ _ (by have := h (ix3 b s w); omega)

end SecondIndices

/-! ## Where an update lands

The scatter has no window axes: all three operand axes are inserted, and axis a of the operand takes component a of
the index vector. So update (b, s, w) lands at the operand index whose coordinates are the three components of its
index vector, read signed. -/

/-- The scatter's dimension numbers. -/
abbrev SD := scatter_S2x1536x4096_S2x1536x32x3_S2x1536x32_n_012_012_3

/-- The window coordinate is zero on every operand axis. -/
theorem window_zero (j : S2x1536x32.Idx) (a : Fin 3) : SD.window j a = 0 := by
  unfold ScatterDims.window
  rw [dif_neg (by revert a; decide)]

/-- Update (b, s, w) reads component c of its index vector at (b, s, w, c). -/
theorem siIdx_eq (b : Fin 2) (s : Fin 1536) (w : Fin 32) (c : Fin 3) :
    SD.siIdx (ix3 b s w) c = ix4 b s w c := by
  funext e
  match e with
  | ⟨0, _⟩ => rfl
  | ⟨1, _⟩ => rfl
  | ⟨2, _⟩ => rfl
  | ⟨3, _⟩ => rfl

section Start
variable (idx : IVec S2x1536x32x3 32) (b : Fin 2) (s : Fin 1536) (w : Fin 32)

theorem start0 : SD.start (ix3 b s w) idx (0 : Fin 3) = (idx (ix4 b s w 0)).toInt := by
  unfold ScatterDims.start
  rw [dif_pos (by decide)]
  exact congrArg (fun z => (idx z).toInt) (siIdx_eq b s w 0)

theorem start1 : SD.start (ix3 b s w) idx (1 : Fin 3) = (idx (ix4 b s w 1)).toInt := by
  unfold ScatterDims.start
  rw [dif_pos (by decide)]
  exact congrArg (fun z => (idx z).toInt) (siIdx_eq b s w 1)

theorem start2 : SD.start (ix3 b s w) idx (2 : Fin 3) = (idx (ix4 b s w 2)).toInt := by
  unfold ScatterDims.start
  rw [dif_pos (by decide)]
  exact congrArg (fun z => (idx z).toInt) (siIdx_eq b s w 2)

end Start

section Scatter
variable (x : Cert.Overlap.SIdx.Idx → BitVec 32) (h : ∀ i, (x i).toNat < 4096)
  (idx : IVec S2x1536x32x3 32)
  (h0 : ∀ b s w, idx (ix4 b s w 0) = BitVec.ofNat 32 b.val)
  (h1 : ∀ b s w, idx (ix4 b s w 1) = BitVec.ofNat 32 s.val)
  (h2 : ∀ b s w, idx (ix4 b s w 2) = x (ix3 b s w))

include h0 h1 h2 in
/-- With index vector (b, s, x[b, s, w]) and every word in range, update (b, s, w) lands at (b, s, x[b, s, w]):
    nothing is dropped. -/
theorem resultIdx_eq (b : Fin 2) (s : Fin 1536) (w : Fin 32) :
    SD.resultIdx? (ix3 b s w) idx = some (ix3 b s (⟨(x (ix3 b s w)).toNat, h _⟩ : Fin 4096)) := by
  have e0 : SD.start (ix3 b s w) idx (0 : Fin 3) + SD.window (ix3 b s w) (0 : Fin 3) = (b.val : Int) := by
    rw [window_zero, Nat.cast_zero, add_zero, start0, h0]
    exact toInt_ofNat_small _ (by have := b.isLt; omega)
  have e1 : SD.start (ix3 b s w) idx (1 : Fin 3) + SD.window (ix3 b s w) (1 : Fin 3) = (s.val : Int) := by
    rw [window_zero, Nat.cast_zero, add_zero, start1, h1]
    exact toInt_ofNat_small _ (by have := s.isLt; omega)
  have e2 : SD.start (ix3 b s w) idx (2 : Fin 3) + SD.window (ix3 b s w) (2 : Fin 3)
      = ((x (ix3 b s w)).toNat : Int) := by
    rw [window_zero, Nat.cast_zero, add_zero, start2, h2]
    exact toInt_eq_toNat_of_lt (by have := h (ix3 b s w); omega)
  have hs : ∀ a : Fin 3, SD.start (ix3 b s w) idx a + SD.window (ix3 b s w) a
      = (((ix3 b s (⟨(x (ix3 b s w)).toNat, h _⟩ : Fin 4096) : S2x1536x4096.Idx) a).val : Int) := fun a =>
    match a with
    | ⟨0, _⟩ => e0
    | ⟨1, _⟩ => e1
    | ⟨2, _⟩ => e2
  unfold ScatterDims.resultIdx?
  rw [dif_pos (fun a => by rw [hs a]; exact ⟨Int.natCast_nonneg _, by exact_mod_cast Fin.isLt _⟩)]
  congr 1
  funext a
  apply Fin.ext
  simp only [hs a, Int.toNat_natCast]

include h h0 h1 h2 in
/-- The scatter-add of ones into zeros is the histogram: entry (b, s, d) collects one from each update (b', s', w)
    landing there, and those are the (b, s, w) with x[b, s, w] = d. -/
theorem scatter_hist (op : S2x1536x4096.Idx → EReal) (hop : ∀ i, op i = 0)
    (upd : S2x1536x32.Idx → EReal) (hupd : ∀ j, upd j = 1) :
    Ideal.hostScatterAdd SD op idx upd = Cert.Overlap.hist x := by
  funext i
  unfold Ideal.hostScatterAdd
  rw [hop, zero_add, Finset.sum_filter]
  refine (sum_idx3 _).trans ?_
  simp only [resultIdx_eq x h idx h0 h1 h2, hupd]
  unfold Cert.Overlap.hist Cert.Overlap.count
  rw [Finset.sum_eq_single (⟨(i 0).val, (i 0).isLt⟩ : Fin 2),
    Finset.sum_eq_single (⟨(i 1).val, (i 1).isLt⟩ : Fin 1536)]
  · refine Finset.sum_congr rfl fun w _ => if_congr ?_ rfl rfl
    rw [Option.some.injEq, ix3_eq_iff, word_eq_iff _ _ (i 2).isLt]
    exact ⟨fun e => e.2.2, fun e => ⟨rfl, rfl, e⟩⟩
  · intro s' _ hs'
    refine Finset.sum_eq_zero fun w _ => if_neg fun e => hs' (Fin.ext ?_)
    exact ((ix3_eq_iff _ _ _ _).1 (Option.some.inj e)).2.1
  · intro hn; exact absurd (Finset.mem_univ _) hn
  · intro b' _ hb'
    refine Finset.sum_eq_zero fun s' _ => Finset.sum_eq_zero fun w _ => if_neg fun e => hb' (Fin.ext ?_)
    exact ((ix3_eq_iff _ _ _ _).1 (Option.some.inj e)).1
  · intro hn; exact absurd (Finset.mem_univ _) hn

end Scatter

/-! ## The three stages -/

/-- The first scatter-add's result is the histogram of the first index array. -/
theorem hist_q (x : Cert.Overlap.SIdx.Idx → BitVec 32) (h : ∀ i, (x i).toNat < 4096) :
    Cert.ReferenceIdeal.Read.val_main_v27 (F := Ideal) x = Cert.Overlap.hist x := by
  unfold val_main_v27 Host.scatterAdd
  rw [Ideal.hostScatterAdd_def]
  refine scatter_hist x h _ (v25_0 x) (v25_1 x) (fun b s w => v25_2 x b s w h) _ (fun i => ?_) _ (fun j => ?_)
  · rw [val_main_v0_apply, val_main_cst_apply, Ideal.ofBits_def]; exact Ideal.ofBits_zero_f32
  · rw [val_main_v26_apply, val_main_cst_5_apply, Ideal.ofBits_def]; exact ofBits_one

/-- The second scatter-add's result is the histogram of the second index array. -/
theorem hist_k (x : Cert.Overlap.SIdx.Idx → BitVec 32) (h : ∀ i, (x i).toNat < 4096) :
    Cert.ReferenceIdeal.Read.val_main_v55 (F := Ideal) x = Cert.Overlap.hist x := by
  unfold val_main_v55 Host.scatterAdd
  rw [Ideal.hostScatterAdd_def]
  refine scatter_hist x h _ (v53_0 x) (v53_1 x) (fun b s w => v53_2 x b s w h) _ (fun i => ?_) _ (fun j => ?_)
  · rw [val_main_v28_apply, val_main_cst_6_apply, Ideal.ofBits_def]; exact Ideal.ofBits_zero_f32
  · rw [val_main_v54_apply, val_main_cst_13_apply, Ideal.ofBits_def]; exact ofBits_one

/-- The reference's result is the overlap of the two index arrays. -/
theorem ref_eq (x0 x1 : Cert.Overlap.SIdx.Idx → BitVec 32) (h0 : ∀ i, (x0 i).toNat < 4096) (h1 : ∀ i, (x1 i).toNat < 4096) :
    Cert.ReferenceIdeal.Read.val_main_v56 (F := Ideal) x0 x1 = Cert.Overlap.overlap x0 x1 := by
  funext i
  rw [val_main_v56_apply, hist_q x0 h0, hist_k x1 h1]
  unfold Cert.Overlap.overlap Cert.Overlap.contract
  refine Finset.sum_congr rfl fun k _ => ?_
  have el : lidx_main_v56 i k
      = ix3 (⟨(i 0).val, (i 0).isLt⟩ : Fin 2) (⟨(i 1).val, (i 1).isLt⟩ : Fin 1536) k := by
    funext a
    match a with
    | ⟨0, _⟩ => rfl
    | ⟨1, _⟩ => rfl
    | ⟨2, _⟩ => rfl
  have er : ridx_main_v56 i k
      = ix3 (⟨(i 0).val, (i 0).isLt⟩ : Fin 2) (⟨(i 2).val, (i 2).isLt⟩ : Fin 1536) k := by
    funext a
    match a with
    | ⟨0, _⟩ => rfl
    | ⟨1, _⟩ => rfl
    | ⟨2, _⟩ => rfl
  rw [el, er]

end Cert.ReferenceIdeal.RefValue

end
-- ==== Proof.PreRange.lean ====
/-
  The precondition read back: it is the conjunction of four `all`-reductions, "every word of the first array is
  at least 0", "... below 4096", and the same two of the second array, compared as signed words. A word that is at
  least 0 and below 4096 as a signed number has its unsigned value below 4096.
-/
import proofs.«418196_j30021821399043_2_alg».proof.Pre_any_inputs
import proofs.«418196_j30021821399043_2_alg».proof.Proof.Spec
import Idealize.ShloMosaic.Lib.ReduceAll
import Idealize.ShloMosaic.Lib.StableHlo.Predicate

set_option maxRecDepth 16384

noncomputable section

open Idealize.ShloMosaic

namespace Cert.PreRange

open Cert.Pre_any_inputs

/-- The scalar shape has one index. -/
instance : Subsingleton S_.Idx := ⟨fun a b => funext fun d => d.elim0⟩

/-- A 32-bit word that is, as a signed number, at least 0 and below 4096 is below 4096 as an unsigned one. -/
theorem word_range (w : BitVec 32) (h0 : IntOp.cmpi .sge w 0#32 = 1#1) (h1 : IntOp.cmpi .slt w 4096#32 = 1#1) :
    w.toNat < 4096 := by
  unfold IntOp.cmpi at h0 h1
  rw [StableHlo.Predicate.ofBool_eq_one_iff] at h0 h1
  have hw := w.isLt
  simp only [BitVec.sle, BitVec.slt, decide_eq_true_eq] at h0 h1
  unfold BitVec.toInt at h0 h1
  simp at h0 h1
  split at h1 <;> omega

/-- The precondition says that every word of both index arrays lies in [0, 4096). -/
theorem range_of_pre [Cert.Pre_any_inputs.Facts] (x0 x1 : Cert.Overlap.SIdx.Idx → BitVec 32)
    (h : Cert.Pre_any_inputs.fn (F := Ideal) x0 x1 = fun _ => 1#1) :
    (∀ i, (x0 i).toNat < 4096) ∧ (∀ i, (x1 i).toNat < 4096) := by
  have e := congrFun h ValueIdx.ix0
  unfold Cert.Pre_any_inputs.fn at e
  simp only [andi, IntOp.andi_eq_one] at e
  obtain ⟨⟨⟨e1, e2⟩, e3⟩, e4⟩ := e
  refine ⟨fun i => ?_, fun i => ?_⟩
  · exact word_range _ (Host.reduce_andi_all _ _ _ _ _ e1 i) (Host.reduce_andi_all _ _ _ _ _ e2 i)
  · exact word_range _ (Host.reduce_andi_all _ _ _ _ _ e3 i) (Host.reduce_andi_all _ _ _ _ _ e4 i)

end Cert.PreRange

end
-- ==== Proof.lean ====
/-
  The certificate's five conjuncts.
  Both programs compute, for index arrays xq, xk : int32[2, 1536, 32] whose words lie in [0, 4096),
    overlap[b, q, k] = the number of pairs (w1, w2) with xq[b, q, w1] = xk[b, k, w2]
                     = sum over words d of (occurrences of d in token (b, q) of xq) * (occurrences of d in token (b, k) of xk):
  the kernel builds the two occurrence arrays by comparing every word with every candidate d and adding the hits,
  then multiplies them on the matrix unit; the reference adds a one at (b, s, x[b, s, w]) for every w and contracts
  the two arrays. At the ideal instance all these sums are exact, so the two results are the same function of the
  arguments (Proof/Spec.lean). The range [0, 4096) is needed: a word in [-4096, -1] is counted by the reference, which
  wraps it, and not by the kernel.
  The frames are the generated ones; nothing was rewritten when the idealized kernel was printed, so `preserves` is
  trivial.
-/
import proofs.«418196_j30021821399043_2_alg».proof.Defs
import proofs.«418196_j30021821399043_2_alg».proof.Proof.Gen.Kernel
import proofs.«418196_j30021821399043_2_alg».proof.Proof.Gen.Kernel.Frame
import proofs.«418196_j30021821399043_2_alg».proof.Proof.Gen.KernelIdeal
import proofs.«418196_j30021821399043_2_alg».proof.Proof.Gen.KernelIdeal.Frame
import proofs.«418196_j30021821399043_2_alg».proof.Proof.Gen.ReferenceIdeal
import proofs.«418196_j30021821399043_2_alg».proof.Proof.Gen.ReferenceIdeal.Run
import proofs.«418196_j30021821399043_2_alg».proof.Proof.Gen.ReferenceIdeal.Read
import proofs.«418196_j30021821399043_2_alg».proof.Proof.Gen.Pre_any_inputs
import proofs.«418196_j30021821399043_2_alg».proof.Proof.KernelValue
import proofs.«418196_j30021821399043_2_alg».proof.Proof.RefValue
import proofs.«418196_j30021821399043_2_alg».proof.Proof.PreRange
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the overlap of the argument arrays, whose words the precondition puts in [0, 4096). -/
theorem algebraic : Cert.algebraic_KernelIdeal_ReferenceIdeal := by
  intro m ρ m' ρ' hpre hagree
  refine ⟨fun c => Cert.Overlap.overlap (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v56_eq, (hagree c).1, (hagree c).2]
  obtain ⟨h0, h1⟩ := Cert.PreRange.range_of_pre _ _ (hpre c)
  exact Cert.ReferenceIdeal.RefValue.ref_eq _ _ h0 h1

theorem claim : Cert.Claim :=
  ⟨Cert.Kernel.Gen.facts, Cert.KernelIdeal.Gen.facts, Cert.ReferenceIdeal.Gen.facts, Cert.Pre_any_inputs.Gen.facts,
    frame_k, frame_ki, frame_ri, trivial, algebraic⟩

end Cert.Proof

end
